-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 90
  | .vmem => 28
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S40000, .f32⟩
  | .hbm, ⟨31, _⟩ => ⟨S640000x1, .i32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S_, .f32⟩
  | .hbm, ⟨37, _⟩ => ⟨S40000, .f32⟩
  | .hbm, ⟨38, _⟩ => ⟨S40000, .f32⟩
  | .hbm, ⟨39, _⟩ => ⟨S40000x1, .f32⟩
  | .hbm, ⟨40, _⟩ => ⟨S_, .f32⟩
  | .hbm, ⟨41, _⟩ => ⟨S40000, .f32⟩
  | .hbm, ⟨42, _⟩ => ⟨S40000, .i1⟩
  | .hbm, ⟨43, _⟩ => ⟨S40000, .f32⟩
  | .hbm, ⟨44, _⟩ => ⟨S40000x1, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S1x128, .f32⟩
  | .hbm, ⟨49, _⟩ => ⟨S40000x128, .f32⟩
  | .hbm, ⟨50, _⟩ => ⟨S1x640000, .i32⟩
  | .hbm, ⟨51, _⟩ => ⟨S640000, .i32⟩
  | .hbm, ⟨52, _⟩ => ⟨S1x640000, .i32⟩
  | .hbm, ⟨53, _⟩ => ⟨S640000, .i32⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S640000x128, .f32⟩
  | .hbm, ⟨63, _⟩ => ⟨S_, .f32⟩
  | .hbm, ⟨64, _⟩ => ⟨S40000x128, .f32⟩
  | .hbm, ⟨65, _⟩ => ⟨S640000x1, .i32⟩
  | .hbm, ⟨66, _⟩ => ⟨S40000x128, .f32⟩
  | .hbm, ⟨67, _⟩ => ⟨S_, .f32⟩
  | .hbm, ⟨68, _⟩ => ⟨S640000, .f32⟩
  | .hbm, ⟨69, _⟩ => ⟨S_, .f32⟩
  | .hbm, ⟨70, _⟩ => ⟨S40000, .f32⟩
  | .hbm, ⟨71, _⟩ => ⟨S640000x1, .i32⟩
  | .hbm, ⟨72, _⟩ => ⟨S40000, .f32⟩
  | .hbm, ⟨73, _⟩ => ⟨S_, .f32⟩
  | .hbm, ⟨74, _⟩ => ⟨S40000, .f32⟩
  | .hbm, ⟨75, _⟩ => ⟨S40000, .f32⟩
  | .hbm, ⟨76, _⟩ => ⟨S_, .f32⟩
  | .hbm, ⟨77, _⟩ => ⟨S40000, .f32⟩
  | .hbm, ⟨78, _⟩ => ⟨S40000, .f32⟩
  | .hbm, ⟨79, _⟩ => ⟨S40000x1, .f32⟩
  | .hbm, ⟨80, _⟩ => ⟨S_, .f32⟩
  | .hbm, ⟨81, _⟩ => ⟨S40000, .f32⟩
  | .hbm, ⟨82, _⟩ => ⟨S40000, .i1⟩
  | .hbm, ⟨83, _⟩ => ⟨S40000, .f32⟩
  | .hbm, ⟨84, _⟩ => ⟨S40000x1, .f32⟩
  | .hbm, ⟨85, _⟩ => ⟨S128x128, .f32⟩
  | .hbm, ⟨86, _⟩ => ⟨S128x128, .f32⟩
  | .hbm, ⟨87, _⟩ => ⟨S1x128, .f32⟩
  | .hbm, ⟨88, _⟩ => ⟨S1x128, .f32⟩
  | .hbm, ⟨89, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  shapeCasts_S40000_S40000x1 : S40000.ShapeCasts S40000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S40000x1.size a
  hwx0_2 : ∀ i : grid0.Coords, EltTy.bits .f32 = 32 ∨ (Rect.block (s := S40000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S40000x1.size a
  hwx0_3 : ∀ i : grid0.Coords, EltTy.bits .f32 = 32 ∨ (Rect.block (s := S40000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S40000x128.size a
  hwx0_8 : ∀ i : grid0.Coords, EltTy.bits .f32 = 32 ∨ (Rect.block (s := S40000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S40000x1.size a
  hwx1_2 : ∀ i : grid1.Coords, EltTy.bits .f32 = 32 ∨ (Rect.block (s := S40000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S40000x1.size a
  hwx1_3 : ∀ i : grid1.Coords, EltTy.bits .f32 = 32 ∨ (Rect.block (s := S40000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S40000x128.size a
  hwx1_8 : ∀ i : grid1.Coords, EltTy.bits .f32 = 32 ∨ (Rect.block (s := S40000x128) S5000x128.size (cc1_transform_8 i) (hinb1_8 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v59) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v63) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩

abbrev nBuf : Space → Nat
  | .hbm => 114
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S128x128, .f32⟩
  | .hbm, ⟨15, _⟩ => ⟨S40000x128, .f32⟩
  | .hbm, ⟨16, _⟩ => ⟨S1x128, .f32⟩
  | .hbm, ⟨17, _⟩ => ⟨S40000x128, .f32⟩
  | .hbm, ⟨18, _⟩ => ⟨S40000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S40000x128, .f32⟩
  | .hbm, ⟨30, _⟩ => ⟨S640000x1, .i32⟩
  | .hbm, ⟨31, _⟩ => ⟨S40000x128, .f32⟩
  | .hbm, ⟨32, _⟩ => ⟨S_, .f32⟩
  | .hbm, ⟨33, _⟩ => ⟨S640000, .f32⟩
  | .hbm, ⟨34, _⟩ => ⟨S_, .f32⟩
  | .hbm, ⟨35, _⟩ => ⟨S40000, .f32⟩
  | .hbm, ⟨36, _⟩ => ⟨S640000x1, .i32⟩
  | .hbm, ⟨37, _⟩ => ⟨S40000, .f32⟩
  | .hbm, ⟨38, _⟩ => ⟨S_, .f32⟩
  | .hbm, ⟨39, _⟩ => ⟨S40000, .f32⟩
  | .hbm, ⟨40, _⟩ => ⟨S40000, .f32⟩
  | .hbm, ⟨41, _⟩ => ⟨S40000x1, .f32⟩
  | .hbm, ⟨42, _⟩ => ⟨S40000x128, .f32⟩
  | .hbm, ⟨43, _⟩ => ⟨S40000x128, .f32⟩
  | .hbm, ⟨44, _⟩ => ⟨S40000x1, .f32⟩
  | .hbm, ⟨45, _⟩ => ⟨S_, .f32⟩
  | .hbm, ⟨46, _⟩ => ⟨S40000x1, .f32⟩
  | .hbm, ⟨47, _⟩ => ⟨S40000x1, .i1⟩
  | .hbm, ⟨48, _⟩ => ⟨S128x128, .f32⟩
  | .hbm, ⟨49, _⟩ => ⟨S40000x128, .f32⟩
  | .hbm, ⟨50, _⟩ => ⟨S1x128, .f32⟩
  | .hbm, ⟨51, _⟩ => ⟨S40000x128, .f32⟩
  | .hbm, ⟨52, _⟩ => ⟨S40000x128, .f32⟩
  | .hbm, ⟨53, _⟩ => ⟨S_, .f32⟩
  | .hbm, ⟨54, _⟩ => ⟨S_, .f32⟩
  | .hbm, ⟨55, _⟩ => ⟨S40000x128, .i1⟩
  | .hbm, ⟨56, _⟩ => ⟨S40000x128, .f32⟩
  | .hbm, ⟨57, _⟩ => ⟨S40000x128, .f32⟩
  | .hbm, ⟨58, _⟩ => ⟨S40000x128, .f32⟩
  | .hbm, ⟨59, _⟩ => ⟨S_, .f32⟩
  | .hbm, ⟨60, _⟩ => ⟨S40000x128, .f32⟩
  | .hbm, ⟨61, _⟩ => ⟨S40000x128, .f32⟩
  | .hbm, ⟨62, _⟩ => ⟨S1x640000, .i32⟩
  | .hbm, ⟨63, _⟩ => ⟨S640000, .i32⟩
  | .hbm, ⟨64, _⟩ => ⟨S1x640000, .i32⟩
  | .hbm, ⟨65, _⟩ => ⟨S640000, .i32⟩
  | .hbm, ⟨66, _⟩ => ⟨S128x128, .f32⟩
  | .hbm, ⟨67, _⟩ => ⟨S40000x128, .f32⟩
  | .hbm, ⟨68, _⟩ => ⟨S1x128, .f32⟩
  | .hbm, ⟨69, _⟩ => ⟨S40000x128, .f32⟩
  | .hbm, ⟨70, _⟩ => ⟨S40000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S_, .f32⟩
  | .hbm, ⟨81, _⟩ => ⟨S40000x128, .f32⟩
  | .hbm, ⟨82, _⟩ => ⟨S640000x1, .i32⟩
  | .hbm, ⟨83, _⟩ => ⟨S40000x128, .f32⟩
  | .hbm, ⟨84, _⟩ => ⟨S_, .f32⟩
  | .hbm, ⟨85, _⟩ => ⟨S640000, .f32⟩
  | .hbm, ⟨86, _⟩ => ⟨S_, .f32⟩
  | .hbm, ⟨87, _⟩ => ⟨S40000, .f32⟩
  | .hbm, ⟨88, _⟩ => ⟨S640000x1, .i32⟩
  | .hbm, ⟨89, _⟩ => ⟨S40000, .f32⟩
  | .hbm, ⟨90, _⟩ => ⟨S_, .f32⟩
  | .hbm, ⟨91, _⟩ => ⟨S40000, .f32⟩
  | .hbm, ⟨92, _⟩ => ⟨S40000, .f32⟩
  | .hbm, ⟨93, _⟩ => ⟨S40000x1, .f32⟩
  | .hbm, ⟨94, _⟩ => ⟨S40000x128, .f32⟩
  | .hbm, ⟨95, _⟩ => ⟨S40000x128, .f32⟩
  | .hbm, ⟨96, _⟩ => ⟨S40000x1, .f32⟩
  | .hbm, ⟨97, _⟩ => ⟨S_, .f32⟩
  | .hbm, ⟨98, _⟩ => ⟨S40000x1, .f32⟩
  | .hbm, ⟨99, _⟩ => ⟨S40000x1, .i1⟩
  | .hbm, ⟨100, _⟩ => ⟨S128x128, .f32⟩
  | .hbm, ⟨101, _⟩ => ⟨S40000x128, .f32⟩
  | .hbm, ⟨102, _⟩ => ⟨S1x128, .f32⟩
  | .hbm, ⟨103, _⟩ => ⟨S40000x128, .f32⟩
  | .hbm, ⟨104, _⟩ => ⟨S40000x128, .f32⟩
  | .hbm, ⟨105, _⟩ => ⟨S_, .f32⟩
  | .hbm, ⟨106, _⟩ => ⟨S_, .f32⟩
  | .hbm, ⟨107, _⟩ => ⟨S40000x128, .i1⟩
  | .hbm, ⟨108, _⟩ => ⟨S40000x128, .f32⟩
  | .hbm, ⟨109, _⟩ => ⟨S40000x128, .f32⟩
  | .hbm, ⟨110, _⟩ => ⟨S40000x128, .f32⟩
  | .hbm, ⟨111, _⟩ => ⟨S_, .f32⟩
  | .hbm, ⟨112, _⟩ => ⟨S40000x128, .f32⟩
  | .hbm, ⟨113, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v36 : Ref sig .tc := ⟨.hbm, 57, rfl⟩
abbrev main_v37 : Ref sig .tc := ⟨.hbm, 58, rfl⟩
abbrev main_call1_cst : Ref sig .tc := ⟨.hbm, 59, rfl⟩
abbrev main_call1_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_6 : Ref sig .tc := ⟨.hbm, 71, rfl⟩
abbrev main_v48 : Ref sig .tc := ⟨.hbm, 72, rfl⟩
abbrev main_v49 : Ref sig .tc := ⟨.hbm, 73, rfl⟩
abbrev main_c_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v75 : Ref sig .tc := ⟨.hbm, 109, rfl⟩
abbrev main_v76 : Ref sig .tc := ⟨.hbm, 110, rfl⟩
abbrev main_call3_cst : Ref sig .tc := ⟨.hbm, 111, rfl⟩
abbrev main_call3_v0 : Ref sig .tc := ⟨.hbm, 112, rfl⟩
abbrev main_v77 : Ref sig .tc := ⟨.hbm, 113, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S40000x1 : S_.BroadcastsInDim S40000x1 (![] : Fin 0 → Fin S40000x1.rank)
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

class Facts : Prop extends Facts₀ where

variable [Facts]
-- ==== Proof.LibRowLinear.lean ====
/-
  A matrix product read at an index, over any extents, and a quotient by a row-wise divisor against the product with its
  reciprocal.

  For a rank-2 contraction `[N, K] · [K, M] → [N, M]` (the left operand's axis 1 against the right operand's axis 0, no
  batch axes) the entry `(n, c)` of the product is `∑ k, l (n, k) · r (k, c)`, the sum over the `K` positions of the one
  contracted axis. It is stated for any dimension record with those dimension numbers (each hypothesis is closed by
  `rfl` at a literal record), so one statement serves products of different heights and widths, a host's
  `dot_general` and a matrix unit's product into a zero accumulator alike. In that form row `n` of the product depends
  on row `n` of the left operand only: the product of a block of rows is that block of rows of the product.

  On the extended reals `x / y` is `x · y⁻¹` whenever `y ≠ 0`, and `1 / y` is then `y⁻¹`; so dividing by a number that
  is at least one is multiplying by its reciprocal, at the infinities too.
-/
import Idealize.ShloMosaic.PureOps.Ideal.Laws
import Idealize.ShloMosaic.Lib.ValueIdx

noncomputable section

namespace Idealize.ShloMosaic.RowLinear

open Idealize.ShloMosaic Idealize.ShloMosaic.ValueIdx

section Record
variable {N K M : Nat}

/-- The literal record of the row-by-column product's dimension numbers. -/
private abbrev ddims (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ :=
  { lhsContracting := [1], rhsContracting := [0], lhsNonContracting := [0], rhsNonContracting := [1],
    lhsBatch := [], rhsBatch := [], wf := wf }

variable (wf : DotDims.WF ⟨2, ![N, K]⟩ ⟨2, ![K, M]⟩ ⟨2, ![N, M]⟩ [1] [0] [0] [1] [] [])
  (j : (⟨2, ![N, M]⟩ : Shape).Idx) (k : (ddims wf).contr.Idx)

/-- Reading a coordinate of the result index at two spellings of one position. -/
private theorem coord_congr (p q : Nat) (hp : p < 2) (hq : q < 2) (h : p = q) :
    (j ⟨p, hp⟩).val = (j ⟨q, hq⟩).val := by subst h; rfl

/-- The left operand's row is the result's row. -/
private theorem lhs_axis0 : ((ddims wf).lhsIdx j k 0).val = (j 0).val := by
  unfold DotDims.lhsIdx
  rw [dif_neg List.not_mem_nil, dif_pos (show (0 : Fin 2) ∈ [(0 : Fin 2)] from List.mem_singleton.mpr rfl)]
  simp only [Fin.val_cast]
  exact coord_congr j _ _ _ _ (by simp)

/-- The left operand's column is the contraction position. -/
private theorem lhs_axis1 : ((ddims wf).lhsIdx j k 1).val = (k ⟨0, by rw [(ddims wf).rank_contr]; exact Nat.one_pos⟩).val :=
  (ddims wf).lhsIdx_val_of_single (cl := 1) rfl j k

/-- The right operand's row is the contraction position. -/
private theorem rhs_axis0 : ((ddims wf).rhsIdx j k 0).val = (k ⟨0, by rw [(ddims wf).rank_contr]; exact Nat.one_pos⟩).val :=
  (ddims wf).rhsIdx_val_of_single (cr := 0) rfl j k

/-- The right operand's column is the result's column. -/
private theorem rhs_axis1 : ((ddims wf).rhsIdx j k 1).val = (j 1).val := by
  unfold DotDims.rhsIdx
  rw [dif_neg List.not_mem_nil, dif_pos (show (1 : Fin 2) ∈ [(1 : Fin 2)] from List.mem_singleton.mpr rfl)]
  simp only [Fin.val_cast]
  exact coord_congr j _ _ _ _ (by simp)

end Record

/-- **The contraction's sum at `(n, c)`**: over the `K` positions of the contracted axis, the left operand's row `n`
    against the right operand's column `c`. -/
theorem contraction_sum {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![N, K]⟩ : Shape).Idx → EReal) (r : (⟨2, ![K, M]⟩ : Shape).Idx → EReal) (n : Fin N) (c : Fin M) :
    ∑ k : d.contr.Idx, l (d.lhsIdx (ix2 n c) k) * r (d.rhsIdx (ix2 n c) k)
      = ∑ k : Fin K, l (ix2 n k) * r (ix2 k c) := by
  obtain ⟨lc, rc, ln, rn, lb, rb, wf⟩ := d
  simp only at hlc hrc hln hrn hlb hrb
  subst hlc hrc hln hrn hlb hrb
  rw [← Equiv.sum_comp (contrEquiv1 (ddims wf) K rfl rfl).symm]
  refine Finset.sum_congr rfl fun k _ => ?_
  have hk := contrEquiv1_symm_val (ddims wf) K rfl rfl k
  have el : (ddims wf).lhsIdx (ix2 n c) ((contrEquiv1 (ddims wf) K rfl rfl).symm k) = ix2 n k := by
    funext a; refine Fin.ext ?_
    match a with
    | ⟨0, _⟩ => exact lhs_axis0 wf _ _
    | ⟨1, _⟩ => exact (lhs_axis1 wf _ _).trans hk
  have er : (ddims wf).rhsIdx (ix2 n c) ((contrEquiv1 (ddims wf) K rfl rfl).symm k) = ix2 k c := by
    funext a; refine Fin.ext ?_
    match a with
    | ⟨0, _⟩ => exact (rhs_axis0 wf _ _).trans hk
    | ⟨1, _⟩ => exact rhs_axis1 wf _ _
  rw [el, er]

/-- **A host's `dot_general` at `(n, c)`**, at the ideal values. -/
theorem dotGeneral_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂)
    (n : Fin N) (c : Fin M) :
    Host.dotGeneral d prec l r (ix2 n c) = ∑ k : Fin K, l (ix2 n k) * r (ix2 k c) := by
  show FloatOps.dotGeneral d prec _ l r (ix2 n c) = _
  rw [Ideal.dotGeneral_apply]
  exact contraction_sum d hlc hrc hln hrn hlb hrb l r n c

/-- **A matrix unit's product into a zero accumulator at `(n, c)`**, at the ideal values. -/
theorem matmul_zero_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂)
    (n : Fin N) (c : Fin M) :
    matmul d prec l r (constant ⟨2, ![N, M]⟩ .f32 0x00000000#32) (ix2 n c) = ∑ k : Fin K, l (ix2 n k) * r (ix2 k c) := by
  show FloatOps.matmul d prec l r (constant ⟨2, ![N, M]⟩ .f32 0x00000000#32) (ix2 n c) = _
  rw [Ideal.matmul_constant_zero_apply]
  exact contraction_sum d hlc hrc hln hrn hlb hrb l r n c

/-- **The product of two matrices**, index by index: entry `(n, c)` is row `n` of `x` against column `c` of `w`. -/
def product {N K M : Nat} (x : (⟨2, ![N, K]⟩ : Shape).Idx → EReal) (w : (⟨2, ![K, M]⟩ : Shape).Idx → EReal) :
    (⟨2, ![N, M]⟩ : Shape).Idx → EReal :=
  fun i => ∑ k : Fin K, x (ix2 (i 0 : Fin N) k) * w (ix2 k (i 1 : Fin M))

theorem product_apply {N K M : Nat} (x : (⟨2, ![N, K]⟩ : Shape).Idx → EReal) (w : (⟨2, ![K, M]⟩ : Shape).Idx → EReal)
    (n : Fin N) (c : Fin M) : product x w (ix2 n c) = ∑ k : Fin K, x (ix2 n k) * w (ix2 k c) := rfl

/-- A host's `dot_general` with these dimension numbers is the product. -/
theorem dotGeneral_eq_product {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂) :
    Host.dotGeneral d prec l r = product l r := by
  funext i
  obtain ⟨n, c, rfl⟩ : ∃ (n : Fin N) (c : Fin M), i = ix2 n c := ⟨i 0, i 1, eq_ix2 i⟩
  exact dotGeneral_apply d hlc hrc hln hrn hlb hrb prec l r n c

/-- A matrix unit's product into a zero accumulator, with these dimension numbers, is the product. -/
theorem matmul_zero_eq_product {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂) :
    matmul d prec l r (constant ⟨2, ![N, M]⟩ .f32 0x00000000#32) = product l r := by
  funext i
  obtain ⟨n, c, rfl⟩ : ∃ (n : Fin N) (c : Fin M), i = ix2 n c := ⟨i 0, i 1, eq_ix2 i⟩
  exact matmul_zero_apply d hlc hrc hln hrn hlb hrb prec l r n c

/-- **A block of rows**: where row `p` of `xb` is row `n` of `x`, row `p` of `xb · w` is row `n` of `x · w`. -/
theorem product_of_rows {P N K M : Nat} (xb : (⟨2, ![P, K]⟩ : Shape).Idx → EReal) (x : (⟨2, ![N, K]⟩ : Shape).Idx → EReal)
    (w : (⟨2, ![K, M]⟩ : Shape).Idx → EReal) (p : Fin P) (n : Fin N) (c : Fin M)
    (h : ∀ k : Fin K, xb (ix2 p k) = x (ix2 n k)) :
    product xb w (ix2 p c) = product x w (ix2 n c) := by
  rw [product_apply, product_apply]
  exact Finset.sum_congr rfl fun k _ => by rw [h k]

/-- The word `0x3F800000` denotes the number one. -/
theorem ofBits_one_f32 : Ideal.ofBits .f32 0x3F800000#32 = 1 := by
  simp [Ideal.ofBits, Ideal.ieee, -EReal.coe_mul]; norm_num

/-- **Dividing by a number that is at least one is multiplying by its reciprocal**: with `y = max c 1`,
    `x · (1 / y) = x / y` on every pair of extended reals (`y` is not zero, so both sides are `x · y⁻¹`). -/
theorem mul_one_div_max_one (x c : EReal) :
    x * Ideal.div 1 (max c 1) = Ideal.div x (max c 1) := by
  have hy : max c 1 ≠ 0 := ne_of_gt (lt_of_lt_of_le zero_lt_one (le_max_right c 1))
  rw [Ideal.div, Ideal.div, if_neg hy, if_neg hy, one_mul]

end Idealize.ShloMosaic.RowLinear

end
-- ==== Proof.Layer.lean ====
/-
  One graph-convolution layer with mean aggregation, entry by entry, on the extended reals, in the two arrangements this
  certificate compares, and what one launch of the kernel leaves in its output array as a function of its eight input arrays.

  For a node `n` and an output feature `j`, with `x` the node features, `ns` the sum of the features of `n`'s in-neighbours,
  `cnt` the number of those neighbours, `Ws`, `Wn` the two weight matrices (used transposed: feature `j` of the image reads
  row `j` of the matrix) and `bs`, `bn` the two biases:

    self n j = (∑ k, x n k · Ws j k) + bs j

  The reference divides the neighbour sum by `max cnt 1` BEFORE the product and keeps the neighbour term only where `cnt > 0`:

    nbrRef n j = if 0 < cnt n then (∑ k, (ns n k / max (cnt n) 1) · Wn j k) + bn j else 0

  The kernel multiplies by the reciprocal AFTER the product and masks only the bias:

    nbrKer n j = (∑ k, ns n k · Wn j k) · (1 / max (cnt n) 1) + (if 0 < cnt n then 1 else 0) · bn j

  Each layer is `max (self + nbr) 0`. The quotient is `Ideal.div`, the extended reals' `x · y⁻¹` off zero.
-/
import Idealize.ShloMosaic.PureOps.Ideal.Laws
import Idealize.ShloMosaic.Lib.ValueIdx
import proofs.«135691_j81252191306417_1_alg».proof.Proof.LibRowLinear

noncomputable section

namespace Cert.GraphConv

open Idealize.ShloMosaic Idealize.ShloMosaic.ValueIdx

/-- An `a × b` array of extended reals, by index. -/
abbrev Mat (a b : Nat) : Type := (⟨2, ![a, b]⟩ : Shape).Idx → EReal
/-- A length-`a` array of extended reals, by index. -/
abbrev Row (a : Nat) : Type := (⟨1, ![a]⟩ : Shape).Idx → EReal

/-- The self term at node `n`, feature `j`: row `n` of `x` against row `j` of `Ws`, plus the bias. -/
def selfAt (x : Mat 40000 128) (Ws : Mat 128 128) (bs : Row 128) (n : Fin 40000) (j : Fin 128) : EReal :=
  (∑ k : Fin 128, x (ix2 n k) * Ws (ix2 j k)) + bs (ix1 j)

/-- The neighbour term as the reference arranges it: the mean first, then the product; nothing where there is no neighbour. -/
def nbrRefAt (ns : Mat 40000 128) (cnt : Row 40000) (Wn : Mat 128 128) (bn : Row 128) (n : Fin 40000) (j : Fin 128) : EReal :=
  if 0 < cnt (ix1 n) then
    (∑ k : Fin 128, Ideal.div (ns (ix2 n k)) (max (cnt (ix1 n)) 1) * Wn (ix2 j k)) + bn (ix1 j)
  else 0

/-- The neighbour term as the kernel arranges it: the product first, then the reciprocal of the count; the bias masked. -/
def nbrKerAt (ns : Mat 40000 128) (cnt : Row 40000) (Wn : Mat 128 128) (bn : Row 128) (n : Fin 40000) (j : Fin 128) : EReal :=
  (∑ k : Fin 128, ns (ix2 n k) * Wn (ix2 j k)) * Ideal.div 1 (max (cnt (ix1 n)) 1)
    + (if 0 < cnt (ix1 n) then (1 : EReal) else 0) * bn (ix1 j)

/-- One layer in the reference's arrangement. -/
def layer (x ns : Mat 40000 128) (cnt : Row 40000) (Ws : Mat 128 128) (bs : Row 128) (Wn : Mat 128 128) (bn : Row 128) :
    Mat 40000 128 :=
  fun i => max (selfAt x Ws bs (i 0 : Fin 40000) (i 1 : Fin 128) + nbrRefAt ns cnt Wn bn (i 0 : Fin 40000) (i 1 : Fin 128)) 0

/-- One layer in the kernel's arrangement. -/
def layerK (x ns : Mat 40000 128) (cnt : Row 40000) (Ws : Mat 128 128) (bs : Row 128) (Wn : Mat 128 128) (bn : Row 128) :
    Mat 40000 128 :=
  fun i => max (selfAt x Ws bs (i 0 : Fin 40000) (i 1 : Fin 128) + nbrKerAt ns cnt Wn bn (i 0 : Fin 40000) (i 1 : Fin 128)) 0

theorem layer_apply (x ns : Mat 40000 128) (cnt : Row 40000) (Ws : Mat 128 128) (bs : Row 128) (Wn : Mat 128 128) (bn : Row 128)
    (n : Fin 40000) (j : Fin 128) :
    layer x ns cnt Ws bs Wn bn (ix2 n j) = max (selfAt x Ws bs n j + nbrRefAt ns cnt Wn bn n j) 0 := rfl

theorem layerK_apply (x ns : Mat 40000 128) (cnt : Row 40000) (Ws : Mat 128 128) (bs : Row 128) (Wn : Mat 128 128) (bn : Row 128)
    (n : Fin 40000) (j : Fin 128) :
    layerK x ns cnt Ws bs Wn bn (ix2 n j) = max (selfAt x Ws bs n j + nbrKerAt ns cnt Wn bn n j) 0 := rfl

/-- What one launch leaves in its output array, from its eight input arrays in the launch's order: the node features `X`,
    the neighbour sums `NS`, the column of reciprocal counts `RECIP`, the column of the mask `MASK`, the two TRANSPOSED
    weight matrices `WST`, `WNT` and the two biases as one-row matrices `BS`, `BN`. Entry `(n, j)` is
    `max ((X·WST) n j + BS 0 j + ((NS·WNT) n j · RECIP n 0 + MASK n 0 · BN 0 j)) 0`. -/
def regionOut (X NS : Mat 40000 128) (RECIP MASK : Mat 40000 1) (WST : Mat 128 128) (BS : Mat 1 128) (WNT : Mat 128 128)
    (BN : Mat 1 128) : Mat 40000 128 :=
  fun i => max ((RowLinear.product X WST (ix2 (i 0 : Fin 40000) (i 1 : Fin 128)) + BS (ix2 (0 : Fin 1) (i 1 : Fin 128)))
    + (RowLinear.product NS WNT (ix2 (i 0 : Fin 40000) (i 1 : Fin 128)) * RECIP (ix2 (i 0 : Fin 40000) (0 : Fin 1))
        + MASK (ix2 (i 0 : Fin 40000) (0 : Fin 1)) * BN (ix2 (0 : Fin 1) (i 1 : Fin 128)))) 0

theorem regionOut_apply (X NS : Mat 40000 128) (RECIP MASK : Mat 40000 1) (WST : Mat 128 128) (BS : Mat 1 128) (WNT : Mat 128 128)
    (BN : Mat 1 128) (n : Fin 40000) (j : Fin 128) :
    regionOut X NS RECIP MASK WST BS WNT BN (ix2 n j)
      = max (((∑ k : Fin 128, X (ix2 n k) * WST (ix2 k j)) + BS (ix2 (0 : Fin 1) j))
          + ((∑ k : Fin 128, NS (ix2 n k) * WNT (ix2 k j)) * RECIP (ix2 n (0 : Fin 1)) + MASK (ix2 n (0 : Fin 1)) * BN (ix2 (0 : Fin 1) j))) 0 := rfl

end Cert.GraphConv

end
-- ==== Proof.KernelHost.lean ====
/-
  The host side of the kernel's program: what each of the two launches finds in its eight input arrays.

  Before each launch the program computes, from the node features `x` and the edge list `e` (row 0 the destination, row 1
  the source of every edge): the sum `nsK x e` of the source rows over the edges into each node (the rows of `x` gathered at
  the sources, scattered with addition over zeros at the destinations), the number `cntK e` of edges into each node (ones
  scattered the same way), the column `recipK e` of `1 / max cnt 1`, the column `maskK e` that is one where `cnt > 0` and zero
  elsewhere, the two weight matrices transposed (`wT`) and the two biases as one-row matrices (`bRow`). The second launch
  finds the same functions of the FIRST launch's result in place of `x`, the edge list and its own weights unchanged.

  One launch leaves `kLayer x e Ws bs Wn bn`, the function `GraphConv.regionOut` of those eight arrays; read entry by entry it
  is the layer in the kernel's arrangement, `GraphConv.layerK x (nsK x e) (cntK e) Ws bs Wn bn`: a transposed matrix read at
  `(k, j)` is the matrix at `(j, k)`, a bias row read at `(0, j)` is the bias at `j`, the reciprocal column at `(n, 0)` is
  `1 / max (cnt n) 1` and the mask column at `(n, 0)` is `1` where `0 < cnt n` and `0` elsewhere.
-/
import proofs.«135691_j81252191306417_1_alg».proof.Proof.Gen.KernelIdeal.Frame
import proofs.«135691_j81252191306417_1_alg».proof.Proof.Layer
import Idealize.ShloMosaic.Lib.StableHlo.Run
import Idealize.ShloMosaic.Lib.Pipeline.Value
import Idealize.ShloMosaic.Lib.ValueIdx

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx

section Pieces
variable {F : FTy → Type} [FloatOps F]

/-- The destination node of every edge, as the one-column array of scatter indices: row 0 of the edge list. -/
def dstIdx (e : (⟨S2x640000, .i32⟩ : BufTy).Contents (Elt F)) : (⟨S640000x1, .i32⟩ : BufTy).Contents (Elt F) :=
  broadcastInDim S640000x1 ![0] bcast_S640000_S640000x1_0 (shapeCast _ (extractStridedSlice S1x640000 ![0, 0] e slices_S2x640000_S1x640000_0_0) shapeCasts_S1x640000_S640000)

/-- The source node of every edge (a negative index counts from the end), as the one-column array of gather indices: row 1 of the edge list. -/
def srcIdx (e : (⟨S2x640000, .i32⟩ : BufTy).Contents (Elt F)) : (⟨S640000x1, .i32⟩ : BufTy).Contents (Elt F) :=
  broadcastInDim S640000x1 ![0] bcast_S640000_S640000x1_0 (select (cmpi .slt (shapeCast _ (extractStridedSlice S1x640000 ![1, 0] e slices_S2x640000_S1x640000_1_0) shapeCasts_S1x640000_S640000) (broadcastInDim S640000 ![] bcast_S_S640000 (constantI S_ 32 0#32))) (addi (shapeCast _ (extractStridedSlice S1x640000 ![1, 0] e slices_S2x640000_S1x640000_1_0) shapeCasts_S1x640000_S640000) (broadcastInDim S640000 ![] bcast_S_S640000 (constantI S_ 32 40000#32))) (shapeCast _ (extractStridedSlice S1x640000 ![1, 0] e slices_S2x640000_S1x640000_1_0) shapeCasts_S1x640000_S640000))

/-- The number of edges into each node: ones scattered over zeros at the destinations. -/
def cntK (e : (⟨S2x640000, .i32⟩ : BufTy).Contents (Elt F)) : (⟨S40000, .f32⟩ : BufTy).Contents (Elt F) :=
  Host.scatterAdd scatter_S40000_S640000x1_S640000_n_0_0_1 (broadcastInDim S40000 ![] bcast_S_S40000 (constant S_ .f32 0x00000000#32)) (dstIdx (F := F) e) (broadcastInDim S640000 ![] bcast_S_S640000 (constant S_ .f32 0x3F800000#32))

/-- The sum of the source rows over the edges into each node: the gathered rows scattered over zeros at the destinations. -/
def nsK (x : (⟨S40000x128, .f32⟩ : BufTy).Contents (Elt F)) (e : (⟨S2x640000, .i32⟩ : BufTy).Contents (Elt F)) : (⟨S40000x128, .f32⟩ : BufTy).Contents (Elt F) :=
  Host.scatterAdd scatter_S40000x128_S640000x1_S640000x128_1_0_0_1 (broadcastInDim S40000x128 ![] bcast_S_S40000x128 (constant S_ .f32 0x00000000#32)) (dstIdx (F := F) e) (Host.gather gather_S40000x128_S640000x1_S640000x128_1_0_n_n_0_1_1128 x (srcIdx (F := F) e))

/-- The column of reciprocals `1 / max cnt 1`. -/
def recipK (e : (⟨S2x640000, .i32⟩ : BufTy).Contents (Elt F)) : (⟨S40000x1, .f32⟩ : BufTy).Contents (Elt F) :=
  shapeCast _ (Host.divf (broadcastInDim S40000 ![] bcast_S_S40000 (constant S_ .f32 0x3F800000#32)) (maximumf (cntK (F := F) e) (broadcastInDim S40000 ![] bcast_S_S40000 (constant S_ .f32 0x3F800000#32)))) shapeCasts_S40000_S40000x1

/-- The column of the mask: one where a node has an in-neighbour, zero where it has none. -/
def maskK (e : (⟨S2x640000, .i32⟩ : BufTy).Contents (Elt F)) : (⟨S40000x1, .f32⟩ : BufTy).Contents (Elt F) :=
  shapeCast _ (uitofp (F := F) .f32 (cmpf (F := F) .ogt (cntK (F := F) e) (broadcastInDim S40000 ![] bcast_S_S40000 (constant S_ .f32 0x00000000#32)))) shapeCasts_S40000_S40000x1

/-- A weight matrix transposed. -/
def wT (W : (⟨S128x128, .f32⟩ : BufTy).Contents (Elt F)) : (⟨S128x128, .f32⟩ : BufTy).Contents (Elt F) :=
  transpose S128x128 [1, 0] W transposes_S128x128_S128x128_1_0

/-- A bias as a one-row matrix. -/
def bRow (b : (⟨S128, .f32⟩ : BufTy).Contents (Elt F)) : (⟨S1x128, .f32⟩ : BufTy).Contents (Elt F) :=
  shapeCast _ b shapeCasts_S128_S1x128

/-! ## What each launch finds -/

variable (m : (ℓ : Loc nD τ sig) → Buf (Elt F) ℓ) (ρ : Dev nD → PrngReg) (c : Dev nD)

/-! The first launch: the eight arrays after the first stretch of host operations, from the launch memory. -/
set_option maxHeartbeats 2000000 in
theorem entry0_x : V1 m ρ c (Pipeline.arrRef spec0 0) = (m ((c : Thread nD τ).loc main_arg0)) := by
  show StableHlo.after hostOps0 (W0 m ρ c) (Proc.devRef .tc main_arg0) = _
  after_results_simp <;> rfl
set_option maxHeartbeats 2000000 in
theorem entry0_ns : V1 m ρ c (Pipeline.arrRef spec0 1) = nsK (m ((c : Thread nD τ).loc main_arg0)) (m ((c : Thread nD τ).loc main_arg1)) := by
  show StableHlo.after hostOps0 (W0 m ρ c) (Proc.devRef .tc main_v13) = _
  after_results_simp <;> rfl
set_option maxHeartbeats 2000000 in
theorem entry0_recip : V1 m ρ c (Pipeline.arrRef spec0 2) = recipK (m ((c : Thread nD τ).loc main_arg1)) := by
  show StableHlo.after hostOps0 (W0 m ρ c) (Proc.devRef .tc main_v22) = _
  after_results_simp <;> rfl
set_option maxHeartbeats 2000000 in
theorem entry0_mask : V1 m ρ c (Pipeline.arrRef spec0 3) = maskK (m ((c : Thread nD τ).loc main_arg1)) := by
  show StableHlo.after hostOps0 (W0 m ρ c) (Proc.devRef .tc main_v26) = _
  after_results_simp <;> rfl
set_option maxHeartbeats 2000000 in
theorem entry0_ws : V1 m ρ c (Pipeline.arrRef spec0 4) = wT (m ((c : Thread nD τ).loc main_arg2)) := by
  show StableHlo.after hostOps0 (W0 m ρ c) (Proc.devRef .tc main_v27) = _
  after_results_simp <;> rfl
set_option maxHeartbeats 2000000 in
theorem entry0_bs : V1 m ρ c (Pipeline.arrRef spec0 5) = bRow (m ((c : Thread nD τ).loc main_arg3)) := by
  show StableHlo.after hostOps0 (W0 m ρ c) (Proc.devRef .tc main_v29) = _
  after_results_simp <;> rfl
set_option maxHeartbeats 2000000 in
theorem entry0_wn : V1 m ρ c (Pipeline.arrRef spec0 6) = wT (m ((c : Thread nD τ).loc main_arg4)) := by
  show StableHlo.after hostOps0 (W0 m ρ c) (Proc.devRef .tc main_v28) = _
  after_results_simp <;> rfl
set_option maxHeartbeats 2000000 in
theorem entry0_bn : V1 m ρ c (Pipeline.arrRef spec0 7) = bRow (m ((c : Thread nD τ).loc main_arg5)) := by
  show StableHlo.after hostOps0 (W0 m ρ c) (Proc.devRef .tc main_v30) = _
  after_results_simp <;> rfl

/-! The second launch: the eight arrays after the second stretch, from the contents the first launch leaves. -/
set_option maxHeartbeats 2000000 in
theorem entry1_x : V3 m ρ c (Pipeline.arrRef spec1 0) = (W2 m ρ c (Proc.devRef .tc main_v31)) := by
  show StableHlo.after hostOps1 (W2 m ρ c) (Proc.devRef .tc main_v31) = _
  after_results_simp <;> rfl
set_option maxHeartbeats 2000000 in
theorem entry1_ns : V3 m ρ c (Pipeline.arrRef spec1 1) = nsK (W2 m ρ c (Proc.devRef .tc main_v31)) (W2 m ρ c (Proc.devRef .tc main_arg1)) := by
  show StableHlo.after hostOps1 (W2 m ρ c) (Proc.devRef .tc main_v45) = _
  after_results_simp <;> rfl
set_option maxHeartbeats 2000000 in
theorem entry1_recip : V3 m ρ c (Pipeline.arrRef spec1 2) = recipK (W2 m ρ c (Proc.devRef .tc main_arg1)) := by
  show StableHlo.after hostOps1 (W2 m ρ c) (Proc.devRef .tc main_v54) = _
  after_results_simp <;> rfl
set_option maxHeartbeats 2000000 in
theorem entry1_mask : V3 m ρ c (Pipeline.arrRef spec1 3) = maskK (W2 m ρ c (Proc.devRef .tc main_arg1)) := by
  show StableHlo.after hostOps1 (W2 m ρ c) (Proc.devRef .tc main_v58) = _
  after_results_simp <;> rfl
set_option maxHeartbeats 2000000 in
theorem entry1_ws : V3 m ρ c (Pipeline.arrRef spec1 4) = wT (W2 m ρ c (Proc.devRef .tc main_arg6)) := by
  show StableHlo.after hostOps1 (W2 m ρ c) (Proc.devRef .tc main_v59) = _
  after_results_simp <;> rfl
set_option maxHeartbeats 2000000 in
theorem entry1_bs : V3 m ρ c (Pipeline.arrRef spec1 5) = bRow (W2 m ρ c (Proc.devRef .tc main_arg7)) := by
  show StableHlo.after hostOps1 (W2 m ρ c) (Proc.devRef .tc main_v61) = _
  after_results_simp <;> rfl
set_option maxHeartbeats 2000000 in
theorem entry1_wn : V3 m ρ c (Pipeline.arrRef spec1 6) = wT (W2 m ρ c (Proc.devRef .tc main_arg8)) := by
  show StableHlo.after hostOps1 (W2 m ρ c) (Proc.devRef .tc main_v60) = _
  after_results_simp <;> rfl
set_option maxHeartbeats 2000000 in
theorem entry1_bn : V3 m ρ c (Pipeline.arrRef spec1 7) = bRow (W2 m ρ c (Proc.devRef .tc main_arg9)) := by
  show StableHlo.after hostOps1 (W2 m ρ c) (Proc.devRef .tc main_v62) = _
  after_results_simp <;> rfl

/-! The edge list and the second layer's weights are as launched when the first launch has ended. -/
set_option maxHeartbeats 2000000 in
theorem W2_arg1 : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)
set_option maxHeartbeats 2000000 in
theorem W2_arg6 : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)
set_option maxHeartbeats 2000000 in
theorem W2_arg7 : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)
set_option maxHeartbeats 2000000 in
theorem W2_arg8 : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)
set_option maxHeartbeats 2000000 in
theorem W2_arg9 : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)

end Pieces

/-! ## One launch, entry by entry -/

/-- What one launch leaves in its output array, as a function of the layer's inputs. -/
def kLayer (x : (⟨S40000x128, .f32⟩ : BufTy).Contents (Elt Ideal)) (e : (⟨S2x640000, .i32⟩ : BufTy).Contents (Elt Ideal)) (Ws : (⟨S128x128, .f32⟩ : BufTy).Contents (Elt Ideal)) (bs : (⟨S128, .f32⟩ : BufTy).Contents (Elt Ideal))
    (Wn : (⟨S128x128, .f32⟩ : BufTy).Contents (Elt Ideal)) (bn : (⟨S128, .f32⟩ : BufTy).Contents (Elt Ideal)) : GraphConv.Mat 40000 128 :=
  GraphConv.regionOut x (nsK (F := Ideal) x e) (recipK (F := Ideal) e) (maskK (F := Ideal) e) (wT (F := Ideal) Ws) (bRow (F := Ideal) bs)
    (wT (F := Ideal) Wn) (bRow (F := Ideal) bn)

/-- A transposed matrix at `(k, j)` is the matrix at `(j, k)`. -/
theorem wT_apply (W : (⟨S128x128, .f32⟩ : BufTy).Contents (Elt Ideal)) (k j : Fin 128) : wT (F := Ideal) W (ix2 k j) = W (ix2 j k) := by
  unfold wT
  exact transpose_apply [1, 0] W transposes_S128x128_S128x128_1_0 (ix2 k j) (ix2 j k) (fun b => match b with
    | ⟨0, _⟩ => rfl
    | ⟨1, _⟩ => rfl)

/-- A bias row at `(0, j)` is the bias at `j`. -/
theorem bRow_apply (b : (⟨S128, .f32⟩ : BufTy).Contents (Elt Ideal)) (j : Fin 128) : bRow (F := Ideal) b (ix2 (0 : Fin 1) j) = b (ix1 j) := by
  unfold bRow
  refine shapeCast_apply b shapeCasts_S128_S1x128 (ix2 (0 : Fin 1) j) (ix1 j) ?_
  rw [Shape.rowMajor_val_one, Shape.rowMajor_val_two]
  show j.val = 0 * 128 + j.val
  omega

/-- A scalar constant spread over a shape reads, at every index, as the constant's value. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w :=
  (broadcastInDim_apply ![] h _ j ix0 (fun a => a.elim0)).trans rfl

/-- The host's quotient of two arrays, at an index. -/
theorem hostDivf_apply {s : Shape} (a b : FVec Ideal s .f32) (i : s.Idx) : Host.divf a b i = Ideal.div (a i) (b i) := rfl

/-- A bit array converted to floats, at an index: the bit as a number. -/
theorem uitofp_apply {s : Shape} (b : IVec s 1) (i : s.Idx) : uitofp (F := Ideal) .f32 b i = (((b i).toNat : ℝ) : EReal) := rfl

/-- The reciprocal column at `(n, 0)`. -/
theorem recipK_apply (e : (⟨S2x640000, .i32⟩ : BufTy).Contents (Elt Ideal)) (n : Fin 40000) :
    recipK (F := Ideal) e (ix2 n (0 : Fin 1)) = Ideal.div 1 (max (cntK (F := Ideal) e (ix1 n)) 1) := by
  unfold recipK
  refine (shapeCast_apply _ shapeCasts_S40000_S40000x1 (ix2 n (0 : Fin 1)) (ix1 n) ?_).trans ?_
  · rw [Shape.rowMajor_val_one, Shape.rowMajor_val_two]
    show n.val = n.val * 1 + 0
    omega
  · rw [hostDivf_apply, splat_apply, maximumf_apply, splat_apply, RowLinear.ofBits_one_f32]

/-- The mask column at `(n, 0)`. -/
theorem maskK_apply (e : (⟨S2x640000, .i32⟩ : BufTy).Contents (Elt Ideal)) (n : Fin 40000) :
    maskK (F := Ideal) e (ix2 n (0 : Fin 1)) = if 0 < cntK (F := Ideal) e (ix1 n) then (1 : EReal) else 0 := by
  unfold maskK
  refine (shapeCast_apply _ shapeCasts_S40000_S40000x1 (ix2 n (0 : Fin 1)) (ix1 n) ?_).trans ?_
  · rw [Shape.rowMajor_val_one, Shape.rowMajor_val_two]
    show n.val = n.val * 1 + 0
    omega
  · rw [uitofp_apply, cmpf_apply, splat_apply, Ideal.ofBits_zero_f32]
    show (((Ideal.cmp .ogt (cntK (F := Ideal) e (ix1 n)) 0).toNat : ℝ) : EReal) = _
    unfold Ideal.cmp
    by_cases h : 0 < cntK (F := Ideal) e (ix1 n)
    · rw [if_pos h]; simp [h]
    · rw [if_neg h]; simp [h]

/-- One launch is the layer in the kernel's arrangement. -/
theorem kLayer_eq (x : (⟨S40000x128, .f32⟩ : BufTy).Contents (Elt Ideal)) (e : (⟨S2x640000, .i32⟩ : BufTy).Contents (Elt Ideal)) (Ws : (⟨S128x128, .f32⟩ : BufTy).Contents (Elt Ideal)) (bs : (⟨S128, .f32⟩ : BufTy).Contents (Elt Ideal))
    (Wn : (⟨S128x128, .f32⟩ : BufTy).Contents (Elt Ideal)) (bn : (⟨S128, .f32⟩ : BufTy).Contents (Elt Ideal)) :
    kLayer x e Ws bs Wn bn = GraphConv.layerK x (nsK (F := Ideal) x e) (cntK (F := Ideal) e) Ws bs Wn bn := by
  funext i
  obtain ⟨n, j, rfl⟩ : ∃ (n : Fin 40000) (j : Fin 128), i = ix2 n j := ⟨i 0, i 1, eq_ix2 i⟩
  unfold kLayer
  rw [GraphConv.regionOut_apply, GraphConv.layerK_apply]
  unfold GraphConv.selfAt GraphConv.nbrKerAt
  rw [bRow_apply, bRow_apply, recipK_apply, maskK_apply]
  simp only [wT_apply]

end Cert.KernelIdeal.KHost

end
-- ==== Proof.KernelRegion0.lean ====
/-
  What one launch of the graph-convolution kernel leaves in its output array, as a function of its eight input arrays.

  The launch `cfg0` runs over 8 grid points. Point `t` reads rows `5000·t … 5000·t + 4999` of the node features, of the
  neighbour sums, of the reciprocal column and of the mask column, the two whole weight matrices and the two one-row
  biases, and stores the block
      max ((Xb·WST + BS) + ((NSb·WNT) · RECIPb + MASKb · BN)) 0
  into rows `5000·t … 5000·t + 4999` of the output. Row `p` of a block is row `5000·t + p` of its array, and row `p` of a
  product of a block of rows is that row of the whole product, so the 8 blocks tile the output array and its entry
  `(n, j)` is `regionOut` of the eight input arrays at `(n, j)`.
-/
import proofs.«135691_j81252191306417_1_alg».proof.Proof.Gen.KernelIdeal.Frame
import proofs.«135691_j81252191306417_1_alg».proof.Proof.Layer
import proofs.«135691_j81252191306417_1_alg».proof.Proof.LibRowLinear
import Idealize.ShloMosaic.Lib.Pipeline.Value
import Idealize.ShloMosaic.Lib.ValueIdx
import Idealize.ShloMosaic.Lib.ValueLayout

set_option maxRecDepth 16384

noncomputable section

namespace Cert.KernelIdeal.KValue0

open Idealize.ShloMosaic Idealize.ShloMosaic.TcCoe Idealize.ShloMosaic.ValueIdx
open Idealize.ShloMosaic.Pipeline (Dat)
open Cert.KernelIdeal Cert.KernelIdeal.Gen

/-! ## The body's arithmetic at an index -/

/-- A column `[a, 1]` broadcast to `[a, b]` reads, at `(p, c)`, the column's entry of row `p`. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `p`, column `j` of its block: the first product's row `p` against column `j` plus the
    first bias, plus the second product's entry scaled by row `p`'s reciprocal plus row `p`'s mask times the second
    bias, clamped below at zero. The truncations are the identity on the ideal values, each shape cast is of a shape to
    itself, and each broadcast repeats a one-row matrix down the rows or a column across the columns. -/
theorem pay_apply (x0 x1 : Vec Ideal S5000x128 .f32) (x2 x3 : Vec Ideal S5000x1 .f32) (x4 x6 : Vec Ideal S128x128 .f32)
    (x5 x7 : Vec Ideal S1x128 .f32) (p : Fin 5000) (j : Fin 128) :
    k0_pay1 (F := Ideal) x0 x4 x5 x1 x6 x2 x3 x7 (ix2 p j)
      = max (((∑ k : Fin 128, x0 (ix2 p k) * x4 (ix2 k j)) + x5 (ix2 (0 : Fin 1) j))
          + ((∑ k : Fin 128, x1 (ix2 p k) * x6 (ix2 k j)) * x2 (ix2 p (0 : Fin 1)) + x3 (ix2 p (0 : Fin 1)) * x7 (ix2 (0 : Fin 1) j))) 0 := by
  unfold k0_pay1
  simp only [shapeCast_self]
  rw [maximumf_apply, addf_apply, addf_apply, addf_apply, mulf_apply, mulf_apply, broadcast_apply,
    RowLinear.matmul_zero_apply dot_S5000x128_S128x128_S5000x128_1_0_0_1_n_n rfl rfl rfl rfl rfl rfl none
      (truncf .bf16 x0 bitsLt_bf16_f32) (truncf .bf16 x4 bitsLt_bf16_f32) p j,
    RowLinear.matmul_zero_apply dot_S5000x128_S128x128_S5000x128_1_0_0_1_n_n rfl rfl rfl rfl rfl rfl none
      (truncf .bf16 x1 bitsLt_bf16_f32) (truncf .bf16 x6 bitsLt_bf16_f32) p j,
    broadcastTo_1b_ab_apply x5 broadcasts_S1x128_S5000x128 p j, broadcastTo_1b_ab_apply x7 broadcasts_S1x128_S5000x128 p j,
    broadcastTo_a1_ab_apply x2 broadcasts_S5000x1_S5000x128 p j, broadcastTo_a1_ab_apply x3 broadcasts_S5000x1_S5000x128 p j,
    Ideal.ofBits_def, Ideal.ofBits_zero_f32]
  rfl

/-! ## The index maps over the grid -/

/-- The zero offsets of a load or a store of a whole buffer. -/
theorem hz : (![0, 0] : Fin 2 → Nat) = fun _ => 0 := funext fun a => by fin_cases a <;> rfl

/-- At grid point `t` the row-blocked windows (the node features, the neighbour sums, the two columns and the output)
    sit at block `(t, 0)`, and the whole-matrix windows (the two weight matrices and the two biases) at block `(0, 0)`. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- The grid has 8 points. -/
theorem gridN : cfg0.N = 8 := by decide +kernel

variable (V : (c : Dev nD) → (b : Ref sig .tc) → Buf (Elt Ideal) ((c : Thread nD τ).loc b))

/-! ## The eight input arrays as the launch finds them, each at its literal type -/

abbrev featArr (c : Dev nD) : Cert.GraphConv.Mat 40000 128 := V c (Pipeline.arrRef spec0 0)
abbrev nsumArr (c : Dev nD) : Cert.GraphConv.Mat 40000 128 := V c (Pipeline.arrRef spec0 1)
abbrev recipArr (c : Dev nD) : Cert.GraphConv.Mat 40000 1 := V c (Pipeline.arrRef spec0 2)
abbrev maskArr (c : Dev nD) : Cert.GraphConv.Mat 40000 1 := V c (Pipeline.arrRef spec0 3)
abbrev wselfArr (c : Dev nD) : Cert.GraphConv.Mat 128 128 := V c (Pipeline.arrRef spec0 4)
abbrev bselfArr (c : Dev nD) : Cert.GraphConv.Mat 1 128 := V c (Pipeline.arrRef spec0 5)
abbrev wnbrArr (c : Dev nD) : Cert.GraphConv.Mat 128 128 := V c (Pipeline.arrRef spec0 6)
abbrev bnbrArr (c : Dev nD) : Cert.GraphConv.Mat 1 128 := V c (Pipeline.arrRef spec0 7)

/-- `regionOut` of the eight arrays. -/
abbrev outFn (c : Dev nD) : Cert.GraphConv.Mat 40000 128 :=
  Cert.GraphConv.regionOut (featArr V c) (nsumArr V c) (recipArr V c) (maskArr V c) (wselfArr V c) (bselfArr V c)
    (wnbrArr V c) (bnbrArr V c)

/-! ## The eight input blocks at a point, each at its literal type -/

abbrev featBlk (c : Dev nD) (t : Fin cfg0.N) : Vec Ideal S5000x128 .f32 := iblk0 V c 0 t
abbrev nsumBlk (c : Dev nD) (t : Fin cfg0.N) : Vec Ideal S5000x128 .f32 := iblk0 V c 1 t
abbrev recipBlk (c : Dev nD) (t : Fin cfg0.N) : Vec Ideal S5000x1 .f32 := iblk0 V c 2 t
abbrev maskBlk (c : Dev nD) (t : Fin cfg0.N) : Vec Ideal S5000x1 .f32 := iblk0 V c 3 t
abbrev wselfBlk (c : Dev nD) (t : Fin cfg0.N) : Vec Ideal S128x128 .f32 := iblk0 V c 4 t
abbrev bselfBlk (c : Dev nD) (t : Fin cfg0.N) : Vec Ideal S1x128 .f32 := iblk0 V c 5 t
abbrev wnbrBlk (c : Dev nD) (t : Fin cfg0.N) : Vec Ideal S128x128 .f32 := iblk0 V c 6 t
abbrev bnbrBlk (c : Dev nD) (t : Fin cfg0.N) : Vec Ideal S1x128 .f32 := iblk0 V c 7 t

/-! ## Each block read at an index

A block's coordinate in its array is, on each axis, the block index times the block's extent plus the coordinate inside
the block. -/

/-- Row `p` of the node features' block at point `t` is row `5000·t + p` of the array. -/
theorem featBlk_apply (c : Dev nD) (t : Fin cfg0.N) (p : Fin 5000) (k : Fin 128) (n : Fin 40000)
    (hn : n.val = 5000 * t.val + p.val) :
    featBlk V c t (ix2 p k) = featArr V c (ix2 n k) := by
  obtain ⟨⟨e0, e1⟩, -⟩ := idx_facts0 t
  show iblk0 V c 0 t _ = _
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- Row `p` of the neighbour sums' block at point `t` is row `5000·t + p` of the array. -/
theorem nsumBlk_apply (c : Dev nD) (t : Fin cfg0.N) (p : Fin 5000) (k : Fin 128) (n : Fin 40000)
    (hn : n.val = 5000 * t.val + p.val) :
    nsumBlk V c t (ix2 p k) = nsumArr V c (ix2 n k) := by
  obtain ⟨-, ⟨e0, e1⟩, -⟩ := idx_facts0 t
  show iblk0 V c 1 t _ = _
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 5000 + 1 * p.val = n.val; rw [e0, hn]; omega
  | ⟨1, _⟩ => show win0_1.index t (1 : Fin 2) * 128 + 1 * k.val = k.val; rw [e1]; omega

/-- Row `p` of the reciprocal column's block at point `t` is row `5000·t + p` of the column. -/
theorem recipBlk_apply (c : Dev nD) (t : Fin cfg0.N) (p : Fin 5000) (n : Fin 40000)
    (hn : n.val = 5000 * t.val + p.val) :
    recipBlk V c t (ix2 p (0 : Fin 1)) = recipArr V c (ix2 n (0 : Fin 1)) := by
  obtain ⟨-, -, ⟨e0, e1⟩, -⟩ := idx_facts0 t
  show iblk0 V c 2 t _ = _
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 5000 + 1 * p.val = n.val; rw [e0, hn]; omega
  | ⟨1, _⟩ => show win0_2.index t (1 : Fin 2) * 1 + 1 * 0 = 0; rw [e1]

/-- Row `p` of the mask column's block at point `t` is row `5000·t + p` of the column. -/
theorem maskBlk_apply (c : Dev nD) (t : Fin cfg0.N) (p : Fin 5000) (n : Fin 40000)
    (hn : n.val = 5000 * t.val + p.val) :
    maskBlk V c t (ix2 p (0 : Fin 1)) = maskArr V c (ix2 n (0 : Fin 1)) := by
  obtain ⟨-, -, -, ⟨e0, e1⟩, -⟩ := idx_facts0 t
  show iblk0 V c 3 t _ = _
  unfold iblk0
  rw [View.read_apply]
  show V c (Pipeline.arrRef spec0 3) _ = V c (Pipeline.arrRef spec0 3) _
  refine congrArg (V c (Pipeline.arrRef spec0 3)) (funext fun a => Fin.ext ?_)
  match a with
  | ⟨0, _⟩ => show win0_3.index t (0 : Fin 2) * 5000 + 1 * p.val = n.val; rw [e0, hn]; omega
  | ⟨1, _⟩ => show win0_3.index t (1 : Fin 2) * 1 + 1 * 0 = 0; rw [e1]

/-- The first weight matrix's one block is the whole matrix. -/
theorem wselfBlk_apply (c : Dev nD) (t : Fin cfg0.N) (k j : Fin 128) :
    wselfBlk V c t (ix2 k j) = wselfArr V c (ix2 k j) := by
  obtain ⟨-, -, -, -, ⟨e0, e1⟩, -⟩ := idx_facts0 t
  show iblk0 V c 4 t _ = _
  unfold iblk0
  rw [View.read_apply]
  show V c (Pipeline.arrRef spec0 4) _ = V c (Pipeline.arrRef spec0 4) _
  refine congrArg (V c (Pipeline.arrRef spec0 4)) (funext fun a => Fin.ext ?_)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

/-- The first bias's one block is the whole row. -/
theorem bselfBlk_apply (c : Dev nD) (t : Fin cfg0.N) (j : Fin 128) :
    bselfBlk V c t (ix2 (0 : Fin 1) j) = bselfArr V c (ix2 (0 : Fin 1) j) := by
  obtain ⟨-, -, -, -, -, ⟨e0, e1⟩, -⟩ := idx_facts0 t
  show iblk0 V c 5 t _ = _
  unfold iblk0
  rw [View.read_apply]
  show V c (Pipeline.arrRef spec0 5) _ = V c (Pipeline.arrRef spec0 5) _
  refine congrArg (V c (Pipeline.arrRef spec0 5)) (funext fun a => Fin.ext ?_)
  match a with
  | ⟨0, _⟩ => show win0_5.index t (0 : Fin 2) * 1 + 1 * 0 = 0; rw [e0]
  | ⟨1, _⟩ => show win0_5.index t (1 : Fin 2) * 128 + 1 * j.val = j.val; rw [e1]; omega

/-- The second weight matrix's one block is the whole matrix. -/
theorem wnbrBlk_apply (c : Dev nD) (t : Fin cfg0.N) (k j : Fin 128) :
    wnbrBlk V c t (ix2 k j) = wnbrArr V c (ix2 k j) := by
  obtain ⟨-, -, -, -, -, -, ⟨e0, e1⟩, -⟩ := idx_facts0 t
  show iblk0 V c 6 t _ = _
  unfold iblk0
  rw [View.read_apply]
  show V c (Pipeline.arrRef spec0 6) _ = V c (Pipeline.arrRef spec0 6) _
  refine congrArg (V c (Pipeline.arrRef spec0 6)) (funext fun a => Fin.ext ?_)
  match a with
  | ⟨0, _⟩ => show win0_6.index t (0 : Fin 2) * 128 + 1 * k.val = k.val; rw [e0]; omega
  | ⟨1, _⟩ => show win0_6.index t (1 : Fin 2) * 128 + 1 * j.val = j.val; rw [e1]; omega

/-- The second bias's one block is the whole row. -/
theorem bnbrBlk_apply (c : Dev nD) (t : Fin cfg0.N) (j : Fin 128) :
    bnbrBlk V c t (ix2 (0 : Fin 1) j) = bnbrArr V c (ix2 (0 : Fin 1) j) := by
  obtain ⟨-, -, -, -, -, -, -, ⟨e0, e1⟩, -⟩ := idx_facts0 t
  show iblk0 V c 7 t _ = _
  unfold iblk0
  rw [View.read_apply]
  show V c (Pipeline.arrRef spec0 7) _ = V c (Pipeline.arrRef spec0 7) _
  refine congrArg (V c (Pipeline.arrRef spec0 7)) (funext fun a => Fin.ext ?_)
  match a with
  | ⟨0, _⟩ => show win0_7.index t (0 : Fin 2) * 1 + 1 * 0 = 0; rw [e0]
  | ⟨1, _⟩ => show win0_7.index t (1 : Fin 2) * 128 + 1 * j.val = j.val; rw [e1]; omega

/-- Row `p` of the output window's block at point `t`, read off any contents `G` of the output array, is row
    `5000·t + p` of `G`. -/
theorem outBlk_apply (G : Cert.GraphConv.Mat 40000 128) (t : Fin cfg0.N) (p : Fin 5000) (j : Fin 128) (n : Fin 40000)
    (hn : n.val = 5000 * t.val + p.val) :
    (((cfg0.win 8).blk t).view.read (Elt Ideal) G : Vec Ideal S5000x128 .f32) (ix2 p j) = G (ix2 n j) := by
  obtain ⟨-, -, -, -, -, -, -, -, ⟨e0, e1⟩⟩ := idx_facts0 t
  rw [View.read_apply]
  show G _ = G _
  refine congrArg G (funext fun a => Fin.ext ?_)
  match a with
  | ⟨0, _⟩ => show win0_8.index t (0 : Fin 2) * 5000 + 1 * p.val = n.val; rw [e0, hn]; omega
  | ⟨1, _⟩ => show win0_8.index t (1 : Fin 2) * 128 + 1 * j.val = j.val; rw [e1]; omega

/-! ## What a point stores, as rows of the whole-array function -/

/-- Entry `(p, j)` of what the body leaves in the output window's buffer at point `t` is entry `(5000·t + p, j)` of
    `regionOut` of the eight arrays: a row of a product of a block of rows is that row of the whole product, and the
    columns and the biases are read at the same row and column. -/
theorem stored_apply (c : Dev nD) (t : Fin cfg0.N) (p : Fin 5000) (j : Fin 128) (n : Fin 40000)
    (hn : n.val = 5000 * t.val + p.val) :
    out0_8 (F := Ideal) (featBlk V c t) (nsumBlk V c t) (recipBlk V c t) (maskBlk V c t) (wselfBlk V c t) (bselfBlk V c t)
        (wnbrBlk V c t) (bnbrBlk V c t) (ix2 p j)
      = outFn V c (ix2 n j) := by
  unfold out0_8
  rw [View.canon_unit_zero hz]
  simp only [View.ld_unit_zero (S := S5000x128) hz, View.ld_unit_zero (S := S128x128) hz, View.ld_unit_zero (S := S1x128) hz,
    View.ld_unit_zero (S := S5000x1) hz]
  refine (pay_apply (featBlk V c t) (nsumBlk V c t) (recipBlk V c t) (maskBlk V c t) (wselfBlk V c t) (wnbrBlk V c t)
    (bselfBlk V c t) (bnbrBlk V c t) p j).trans ?_
  show _ = Cert.GraphConv.regionOut (featArr V c) (nsumArr V c) (recipArr V c) (maskArr V c) (wselfArr V c) (bselfArr V c)
    (wnbrArr V c) (bnbrArr V c) (ix2 n j)
  rw [Cert.GraphConv.regionOut_apply]
  have s1 : (∑ k : Fin 128, featBlk V c t (ix2 p k) * wselfBlk V c t (ix2 k j))
      = ∑ k : Fin 128, featArr V c (ix2 n k) * wselfArr V c (ix2 k j) :=
    Finset.sum_congr rfl fun k _ => by rw [featBlk_apply V c t p k n hn, wselfBlk_apply V c t k j]
  have s2 : (∑ k : Fin 128, nsumBlk V c t (ix2 p k) * wnbrBlk V c t (ix2 k j))
      = ∑ k : Fin 128, nsumArr V c (ix2 n k) * wnbrArr V c (ix2 k j) :=
    Finset.sum_congr rfl fun k _ => by rw [nsumBlk_apply V c t p k n hn, wnbrBlk_apply V c t k j]
  rw [s1, s2, recipBlk_apply V c t p n hn, maskBlk_apply V c t p n hn, bselfBlk_apply V c t j, bnbrBlk_apply V c t j]

/-- What point `t` writes back is block `t` of `regionOut` of the eight arrays as the launch finds them. -/
theorem flushed_eq (c : Dev nD) (t : Fin cfg0.N) :
    (dat0 (F := Ideal) V c).flushed 8 t = ((cfg0.win 8).blk t).view.read (Elt Ideal) (outFn V c) := by
  show (cfg0.win 8).cut (grid0.coords t) ((dat0 V c).after 8 t) = _
  rw [after0_8]
  show (out0_8 (F := Ideal) (featBlk V c t) (nsumBlk V c t) (recipBlk V c t) (maskBlk V c t) (wselfBlk V c t) (bselfBlk V c t)
        (wnbrBlk V c t) (bnbrBlk V c t) : Vec Ideal S5000x128 .f32) = _
  funext y
  obtain ⟨p, j, rfl⟩ : ∃ (p : Fin 5000) (j : Fin 128), y = ix2 p j := ⟨y 0, y 1, eq_ix2 y⟩
  have hN : cfg0.N = 8 := gridN
  have ht : t.val < 8 := hN ▸ t.isLt
  exact (stored_apply V c t p j ⟨5000 * t.val + p.val, by have := p.isLt; omega⟩ rfl).trans
    (outBlk_apply (outFn V c) t p j ⟨5000 * t.val + p.val, by have := p.isLt; omega⟩ rfl).symm

/-! ## The blocks tile the output array -/

/-- An index of the output array is in point `t`'s block iff each coordinate is in the block's range on its axis. -/
theorem mem_blk (t : Fin cfg0.N) (i : S40000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v31).slice (win0_8.rect t)).set ↔ _
  rw [View.set_slice_whole, Rect.mem_set_unit]
  exact Iff.rfl

/-- Row `r` of the output array is in the block of point `r / 5000`. -/
theorem cover (i : S40000x128.Idx) :
    ∃ t : Fin cfg0.N, (cfg0.win 8).flush t = true ∧ i ∈ ((cfg0.win 8).blk t).view.set := by
  have hN : cfg0.N = 8 := gridN
  have hi0 : (i 0).val < 40000 := (i 0).isLt
  have hi1 : (i 1).val < 128 := (i 1).isLt
  obtain ⟨-, -, -, -, -, -, -, -, ⟨e0, e1⟩⟩ := idx_facts0 ⟨(i 0).val / 5000, by rw [hN]; omega⟩
  refine ⟨⟨(i 0).val / 5000, by rw [hN]; omega⟩, flush0_8 _, ?_⟩
  rw [mem_blk]
  intro a
  match a with
  | ⟨0, _⟩ =>
    show win0_8.index _ (0 : Fin 2) * 5000 ≤ (i 0).val ∧ (i 0).val < win0_8.index _ (0 : Fin 2) * 5000 + 5000
    rw [e0]
    show (i 0).val / 5000 * 5000 ≤ (i 0).val ∧ (i 0).val < (i 0).val / 5000 * 5000 + 5000
    omega
  | ⟨1, _⟩ =>
    show win0_8.index _ (1 : Fin 2) * 128 ≤ (i 1).val ∧ (i 1).val < win0_8.index _ (1 : Fin 2) * 128 + 128
    rw [e1]
    omega

/-! ## The output array after the launch -/

/-- **The output array after the launch `cfg0`** is `regionOut` of its eight input arrays as the launch finds them. -/
theorem region0_out (c : Dev nD) :
    (dat0 (F := Ideal) V c).arrAt 8 cfg0.N
      = Cert.GraphConv.regionOut (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) :=
  (dat0 (F := Ideal) V c).arrAt_eq_of_cover 8 (outFn V c) (fun t _ => flushed_eq V c t) cover

end Cert.KernelIdeal.KValue0

end
-- ==== Proof.KernelRegion1.lean ====
/-
  What one launch of the graph-convolution kernel leaves in its output array, as a function of its eight input arrays.

  The launch `cfg1` runs over 8 grid points. Point `t` reads rows `5000·t … 5000·t + 4999` of the node features, of the
  neighbour sums, of the reciprocal column and of the mask column, the two whole weight matrices and the two one-row
  biases, and stores the block
      max ((Xb·WST + BS) + ((NSb·WNT) · RECIPb + MASKb · BN)) 0
  into rows `5000·t … 5000·t + 4999` of the output. Row `p` of a block is row `5000·t + p` of its array, and row `p` of a
  product of a block of rows is that row of the whole product, so the 8 blocks tile the output array and its entry
  `(n, j)` is `regionOut` of the eight input arrays at `(n, j)`.
-/
import proofs.«135691_j81252191306417_1_alg».proof.Proof.Gen.KernelIdeal.Frame
import proofs.«135691_j81252191306417_1_alg».proof.Proof.Layer
import proofs.«135691_j81252191306417_1_alg».proof.Proof.LibRowLinear
import Idealize.ShloMosaic.Lib.Pipeline.Value
import Idealize.ShloMosaic.Lib.ValueIdx
import Idealize.ShloMosaic.Lib.ValueLayout

set_option maxRecDepth 16384

noncomputable section

namespace Cert.KernelIdeal.KValue1

open Idealize.ShloMosaic Idealize.ShloMosaic.TcCoe Idealize.ShloMosaic.ValueIdx
open Idealize.ShloMosaic.Pipeline (Dat)
open Cert.KernelIdeal Cert.KernelIdeal.Gen

/-! ## The body's arithmetic at an index -/

/-- A column `[a, 1]` broadcast to `[a, b]` reads, at `(p, c)`, the column's entry of row `p`. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `p`, column `j` of its block: the first product's row `p` against column `j` plus the
    first bias, plus the second product's entry scaled by row `p`'s reciprocal plus row `p`'s mask times the second
    bias, clamped below at zero. The truncations are the identity on the ideal values, each shape cast is of a shape to
    itself, and each broadcast repeats a one-row matrix down the rows or a column across the columns. -/
theorem pay_apply (x0 x1 : Vec Ideal S5000x128 .f32) (x2 x3 : Vec Ideal S5000x1 .f32) (x4 x6 : Vec Ideal S128x128 .f32)
    (x5 x7 : Vec Ideal S1x128 .f32) (p : Fin 5000) (j : Fin 128) :
    k1_pay1 (F := Ideal) x0 x4 x5 x1 x6 x2 x3 x7 (ix2 p j)
      = max (((∑ k : Fin 128, x0 (ix2 p k) * x4 (ix2 k j)) + x5 (ix2 (0 : Fin 1) j))
          + ((∑ k : Fin 128, x1 (ix2 p k) * x6 (ix2 k j)) * x2 (ix2 p (0 : Fin 1)) + x3 (ix2 p (0 : Fin 1)) * x7 (ix2 (0 : Fin 1) j))) 0 := by
  unfold k1_pay1
  simp only [shapeCast_self]
  rw [maximumf_apply, addf_apply, addf_apply, addf_apply, mulf_apply, mulf_apply, broadcast_apply,
    RowLinear.matmul_zero_apply dot_S5000x128_S128x128_S5000x128_1_0_0_1_n_n rfl rfl rfl rfl rfl rfl none
      (truncf .bf16 x0 bitsLt_bf16_f32) (truncf .bf16 x4 bitsLt_bf16_f32) p j,
    RowLinear.matmul_zero_apply dot_S5000x128_S128x128_S5000x128_1_0_0_1_n_n rfl rfl rfl rfl rfl rfl none
      (truncf .bf16 x1 bitsLt_bf16_f32) (truncf .bf16 x6 bitsLt_bf16_f32) p j,
    broadcastTo_1b_ab_apply x5 broadcasts_S1x128_S5000x128 p j, broadcastTo_1b_ab_apply x7 broadcasts_S1x128_S5000x128 p j,
    broadcastTo_a1_ab_apply x2 broadcasts_S5000x1_S5000x128 p j, broadcastTo_a1_ab_apply x3 broadcasts_S5000x1_S5000x128 p j,
    Ideal.ofBits_def, Ideal.ofBits_zero_f32]
  rfl

/-! ## The index maps over the grid -/

/-- The zero offsets of a load or a store of a whole buffer. -/
theorem hz : (![0, 0] : Fin 2 → Nat) = fun _ => 0 := funext fun a => by fin_cases a <;> rfl

/-- At grid point `t` the row-blocked windows (the node features, the neighbour sums, the two columns and the output)
    sit at block `(t, 0)`, and the whole-matrix windows (the two weight matrices and the two biases) at block `(0, 0)`. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-- The grid has 8 points. -/
theorem gridN : cfg1.N = 8 := by decide +kernel

variable (V : (c : Dev nD) → (b : Ref sig .tc) → Buf (Elt Ideal) ((c : Thread nD τ).loc b))

/-! ## The eight input arrays as the launch finds them, each at its literal type -/

abbrev featArr (c : Dev nD) : Cert.GraphConv.Mat 40000 128 := V c (Pipeline.arrRef spec1 0)
abbrev nsumArr (c : Dev nD) : Cert.GraphConv.Mat 40000 128 := V c (Pipeline.arrRef spec1 1)
abbrev recipArr (c : Dev nD) : Cert.GraphConv.Mat 40000 1 := V c (Pipeline.arrRef spec1 2)
abbrev maskArr (c : Dev nD) : Cert.GraphConv.Mat 40000 1 := V c (Pipeline.arrRef spec1 3)
abbrev wselfArr (c : Dev nD) : Cert.GraphConv.Mat 128 128 := V c (Pipeline.arrRef spec1 4)
abbrev bselfArr (c : Dev nD) : Cert.GraphConv.Mat 1 128 := V c (Pipeline.arrRef spec1 5)
abbrev wnbrArr (c : Dev nD) : Cert.GraphConv.Mat 128 128 := V c (Pipeline.arrRef spec1 6)
abbrev bnbrArr (c : Dev nD) : Cert.GraphConv.Mat 1 128 := V c (Pipeline.arrRef spec1 7)

/-- `regionOut` of the eight arrays. -/
abbrev outFn (c : Dev nD) : Cert.GraphConv.Mat 40000 128 :=
  Cert.GraphConv.regionOut (featArr V c) (nsumArr V c) (recipArr V c) (maskArr V c) (wselfArr V c) (bselfArr V c)
    (wnbrArr V c) (bnbrArr V c)

/-! ## The eight input blocks at a point, each at its literal type -/

abbrev featBlk (c : Dev nD) (t : Fin cfg1.N) : Vec Ideal S5000x128 .f32 := iblk1 V c 0 t
abbrev nsumBlk (c : Dev nD) (t : Fin cfg1.N) : Vec Ideal S5000x128 .f32 := iblk1 V c 1 t
abbrev recipBlk (c : Dev nD) (t : Fin cfg1.N) : Vec Ideal S5000x1 .f32 := iblk1 V c 2 t
abbrev maskBlk (c : Dev nD) (t : Fin cfg1.N) : Vec Ideal S5000x1 .f32 := iblk1 V c 3 t
abbrev wselfBlk (c : Dev nD) (t : Fin cfg1.N) : Vec Ideal S128x128 .f32 := iblk1 V c 4 t
abbrev bselfBlk (c : Dev nD) (t : Fin cfg1.N) : Vec Ideal S1x128 .f32 := iblk1 V c 5 t
abbrev wnbrBlk (c : Dev nD) (t : Fin cfg1.N) : Vec Ideal S128x128 .f32 := iblk1 V c 6 t
abbrev bnbrBlk (c : Dev nD) (t : Fin cfg1.N) : Vec Ideal S1x128 .f32 := iblk1 V c 7 t

/-! ## Each block read at an index

A block's coordinate in its array is, on each axis, the block index times the block's extent plus the coordinate inside
the block. -/

/-- Row `p` of the node features' block at point `t` is row `5000·t + p` of the array. -/
theorem featBlk_apply (c : Dev nD) (t : Fin cfg1.N) (p : Fin 5000) (k : Fin 128) (n : Fin 40000)
    (hn : n.val = 5000 * t.val + p.val) :
    featBlk V c t (ix2 p k) = featArr V c (ix2 n k) := by
  obtain ⟨⟨e0, e1⟩, -⟩ := idx_facts1 t
  show iblk1 V c 0 t _ = _
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- Row `p` of the neighbour sums' block at point `t` is row `5000·t + p` of the array. -/
theorem nsumBlk_apply (c : Dev nD) (t : Fin cfg1.N) (p : Fin 5000) (k : Fin 128) (n : Fin 40000)
    (hn : n.val = 5000 * t.val + p.val) :
    nsumBlk V c t (ix2 p k) = nsumArr V c (ix2 n k) := by
  obtain ⟨-, ⟨e0, e1⟩, -⟩ := idx_facts1 t
  show iblk1 V c 1 t _ = _
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 5000 + 1 * p.val = n.val; rw [e0, hn]; omega
  | ⟨1, _⟩ => show win1_1.index t (1 : Fin 2) * 128 + 1 * k.val = k.val; rw [e1]; omega

/-- Row `p` of the reciprocal column's block at point `t` is row `5000·t + p` of the column. -/
theorem recipBlk_apply (c : Dev nD) (t : Fin cfg1.N) (p : Fin 5000) (n : Fin 40000)
    (hn : n.val = 5000 * t.val + p.val) :
    recipBlk V c t (ix2 p (0 : Fin 1)) = recipArr V c (ix2 n (0 : Fin 1)) := by
  obtain ⟨-, -, ⟨e0, e1⟩, -⟩ := idx_facts1 t
  show iblk1 V c 2 t _ = _
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 5000 + 1 * p.val = n.val; rw [e0, hn]; omega
  | ⟨1, _⟩ => show win1_2.index t (1 : Fin 2) * 1 + 1 * 0 = 0; rw [e1]

/-- Row `p` of the mask column's block at point `t` is row `5000·t + p` of the column. -/
theorem maskBlk_apply (c : Dev nD) (t : Fin cfg1.N) (p : Fin 5000) (n : Fin 40000)
    (hn : n.val = 5000 * t.val + p.val) :
    maskBlk V c t (ix2 p (0 : Fin 1)) = maskArr V c (ix2 n (0 : Fin 1)) := by
  obtain ⟨-, -, -, ⟨e0, e1⟩, -⟩ := idx_facts1 t
  show iblk1 V c 3 t _ = _
  unfold iblk1
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 2) * 5000 + 1 * p.val = n.val; rw [e0, hn]; omega
  | ⟨1, _⟩ => show win1_3.index t (1 : Fin 2) * 1 + 1 * 0 = 0; rw [e1]

/-- The first weight matrix's one block is the whole matrix. -/
theorem wselfBlk_apply (c : Dev nD) (t : Fin cfg1.N) (k j : Fin 128) :
    wselfBlk V c t (ix2 k j) = wselfArr V c (ix2 k j) := by
  obtain ⟨-, -, -, -, ⟨e0, e1⟩, -⟩ := idx_facts1 t
  show iblk1 V c 4 t _ = _
  unfold iblk1
  rw [View.read_apply]
  show V c (Pipeline.arrRef spec1 4) _ = V c (Pipeline.arrRef spec1 4) _
  refine congrArg (V c (Pipeline.arrRef spec1 4)) (funext fun a => Fin.ext ?_)
  match a with
  | ⟨0, _⟩ => show win1_4.index t (0 : Fin 2) * 128 + 1 * k.val = k.val; rw [e0]; omega
  | ⟨1, _⟩ => show win1_4.index t (1 : Fin 2) * 128 + 1 * j.val = j.val; rw [e1]; omega

/-- The first bias's one block is the whole row. -/
theorem bselfBlk_apply (c : Dev nD) (t : Fin cfg1.N) (j : Fin 128) :
    bselfBlk V c t (ix2 (0 : Fin 1) j) = bselfArr V c (ix2 (0 : Fin 1) j) := by
  obtain ⟨-, -, -, -, -, ⟨e0, e1⟩, -⟩ := idx_facts1 t
  show iblk1 V c 5 t _ = _
  unfold iblk1
  rw [View.read_apply]
  show V c (Pipeline.arrRef spec1 5) _ = V c (Pipeline.arrRef spec1 5) _
  refine congrArg (V c (Pipeline.arrRef spec1 5)) (funext fun a => Fin.ext ?_)
  match a with
  | ⟨0, _⟩ => show win1_5.index t (0 : Fin 2) * 1 + 1 * 0 = 0; rw [e0]
  | ⟨1, _⟩ => show win1_5.index t (1 : Fin 2) * 128 + 1 * j.val = j.val; rw [e1]; omega

/-- The second weight matrix's one block is the whole matrix. -/
theorem wnbrBlk_apply (c : Dev nD) (t : Fin cfg1.N) (k j : Fin 128) :
    wnbrBlk V c t (ix2 k j) = wnbrArr V c (ix2 k j) := by
  obtain ⟨-, -, -, -, -, -, ⟨e0, e1⟩, -⟩ := idx_facts1 t
  show iblk1 V c 6 t _ = _
  unfold iblk1
  rw [View.read_apply]
  show V c (Pipeline.arrRef spec1 6) _ = V c (Pipeline.arrRef spec1 6) _
  refine congrArg (V c (Pipeline.arrRef spec1 6)) (funext fun a => Fin.ext ?_)
  match a with
  | ⟨0, _⟩ => show win1_6.index t (0 : Fin 2) * 128 + 1 * k.val = k.val; rw [e0]; omega
  | ⟨1, _⟩ => show win1_6.index t (1 : Fin 2) * 128 + 1 * j.val = j.val; rw [e1]; omega

/-- The second bias's one block is the whole row. -/
theorem bnbrBlk_apply (c : Dev nD) (t : Fin cfg1.N) (j : Fin 128) :
    bnbrBlk V c t (ix2 (0 : Fin 1) j) = bnbrArr V c (ix2 (0 : Fin 1) j) := by
  obtain ⟨-, -, -, -, -, -, -, ⟨e0, e1⟩, -⟩ := idx_facts1 t
  show iblk1 V c 7 t _ = _
  unfold iblk1
  rw [View.read_apply]
  show V c (Pipeline.arrRef spec1 7) _ = V c (Pipeline.arrRef spec1 7) _
  refine congrArg (V c (Pipeline.arrRef spec1 7)) (funext fun a => Fin.ext ?_)
  match a with
  | ⟨0, _⟩ => show win1_7.index t (0 : Fin 2) * 1 + 1 * 0 = 0; rw [e0]
  | ⟨1, _⟩ => show win1_7.index t (1 : Fin 2) * 128 + 1 * j.val = j.val; rw [e1]; omega

/-- Row `p` of the output window's block at point `t`, read off any contents `G` of the output array, is row
    `5000·t + p` of `G`. -/
theorem outBlk_apply (G : Cert.GraphConv.Mat 40000 128) (t : Fin cfg1.N) (p : Fin 5000) (j : Fin 128) (n : Fin 40000)
    (hn : n.val = 5000 * t.val + p.val) :
    (((cfg1.win 8).blk t).view.read (Elt Ideal) G : Vec Ideal S5000x128 .f32) (ix2 p j) = G (ix2 n j) := by
  obtain ⟨-, -, -, -, -, -, -, -, ⟨e0, e1⟩⟩ := idx_facts1 t
  rw [View.read_apply]
  show G _ = G _
  refine congrArg G (funext fun a => Fin.ext ?_)
  match a with
  | ⟨0, _⟩ => show win1_8.index t (0 : Fin 2) * 5000 + 1 * p.val = n.val; rw [e0, hn]; omega
  | ⟨1, _⟩ => show win1_8.index t (1 : Fin 2) * 128 + 1 * j.val = j.val; rw [e1]; omega

/-! ## What a point stores, as rows of the whole-array function -/

/-- Entry `(p, j)` of what the body leaves in the output window's buffer at point `t` is entry `(5000·t + p, j)` of
    `regionOut` of the eight arrays: a row of a product of a block of rows is that row of the whole product, and the
    columns and the biases are read at the same row and column. -/
theorem stored_apply (c : Dev nD) (t : Fin cfg1.N) (p : Fin 5000) (j : Fin 128) (n : Fin 40000)
    (hn : n.val = 5000 * t.val + p.val) :
    out1_8 (F := Ideal) (featBlk V c t) (nsumBlk V c t) (recipBlk V c t) (maskBlk V c t) (wselfBlk V c t) (bselfBlk V c t)
        (wnbrBlk V c t) (bnbrBlk V c t) (ix2 p j)
      = outFn V c (ix2 n j) := by
  unfold out1_8
  rw [View.canon_unit_zero hz]
  simp only [View.ld_unit_zero (S := S5000x128) hz, View.ld_unit_zero (S := S128x128) hz, View.ld_unit_zero (S := S1x128) hz,
    View.ld_unit_zero (S := S5000x1) hz]
  refine (pay_apply (featBlk V c t) (nsumBlk V c t) (recipBlk V c t) (maskBlk V c t) (wselfBlk V c t) (wnbrBlk V c t)
    (bselfBlk V c t) (bnbrBlk V c t) p j).trans ?_
  show _ = Cert.GraphConv.regionOut (featArr V c) (nsumArr V c) (recipArr V c) (maskArr V c) (wselfArr V c) (bselfArr V c)
    (wnbrArr V c) (bnbrArr V c) (ix2 n j)
  rw [Cert.GraphConv.regionOut_apply]
  have s1 : (∑ k : Fin 128, featBlk V c t (ix2 p k) * wselfBlk V c t (ix2 k j))
      = ∑ k : Fin 128, featArr V c (ix2 n k) * wselfArr V c (ix2 k j) :=
    Finset.sum_congr rfl fun k _ => by rw [featBlk_apply V c t p k n hn, wselfBlk_apply V c t k j]
  have s2 : (∑ k : Fin 128, nsumBlk V c t (ix2 p k) * wnbrBlk V c t (ix2 k j))
      = ∑ k : Fin 128, nsumArr V c (ix2 n k) * wnbrArr V c (ix2 k j) :=
    Finset.sum_congr rfl fun k _ => by rw [nsumBlk_apply V c t p k n hn, wnbrBlk_apply V c t k j]
  rw [s1, s2, recipBlk_apply V c t p n hn, maskBlk_apply V c t p n hn, bselfBlk_apply V c t j, bnbrBlk_apply V c t j]

/-- What point `t` writes back is block `t` of `regionOut` of the eight arrays as the launch finds them. -/
theorem flushed_eq (c : Dev nD) (t : Fin cfg1.N) :
    (dat1 (F := Ideal) V c).flushed 8 t = ((cfg1.win 8).blk t).view.read (Elt Ideal) (outFn V c) := by
  show (cfg1.win 8).cut (grid1.coords t) ((dat1 V c).after 8 t) = _
  rw [after1_8]
  show (out1_8 (F := Ideal) (featBlk V c t) (nsumBlk V c t) (recipBlk V c t) (maskBlk V c t) (wselfBlk V c t) (bselfBlk V c t)
        (wnbrBlk V c t) (bnbrBlk V c t) : Vec Ideal S5000x128 .f32) = _
  funext y
  obtain ⟨p, j, rfl⟩ : ∃ (p : Fin 5000) (j : Fin 128), y = ix2 p j := ⟨y 0, y 1, eq_ix2 y⟩
  have hN : cfg1.N = 8 := gridN
  have ht : t.val < 8 := hN ▸ t.isLt
  exact (stored_apply V c t p j ⟨5000 * t.val + p.val, by have := p.isLt; omega⟩ rfl).trans
    (outBlk_apply (outFn V c) t p j ⟨5000 * t.val + p.val, by have := p.isLt; omega⟩ rfl).symm

/-! ## The blocks tile the output array -/

/-- An index of the output array is in point `t`'s block iff each coordinate is in the block's range on its axis. -/
theorem mem_blk (t : Fin cfg1.N) (i : S40000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v63).slice (win1_8.rect t)).set ↔ _
  rw [View.set_slice_whole, Rect.mem_set_unit]
  exact Iff.rfl

/-- Row `r` of the output array is in the block of point `r / 5000`. -/
theorem cover (i : S40000x128.Idx) :
    ∃ t : Fin cfg1.N, (cfg1.win 8).flush t = true ∧ i ∈ ((cfg1.win 8).blk t).view.set := by
  have hN : cfg1.N = 8 := gridN
  have hi0 : (i 0).val < 40000 := (i 0).isLt
  have hi1 : (i 1).val < 128 := (i 1).isLt
  obtain ⟨-, -, -, -, -, -, -, -, ⟨e0, e1⟩⟩ := idx_facts1 ⟨(i 0).val / 5000, by rw [hN]; omega⟩
  refine ⟨⟨(i 0).val / 5000, by rw [hN]; omega⟩, flush1_8 _, ?_⟩
  rw [mem_blk]
  intro a
  match a with
  | ⟨0, _⟩ =>
    show win1_8.index _ (0 : Fin 2) * 5000 ≤ (i 0).val ∧ (i 0).val < win1_8.index _ (0 : Fin 2) * 5000 + 5000
    rw [e0]
    show (i 0).val / 5000 * 5000 ≤ (i 0).val ∧ (i 0).val < (i 0).val / 5000 * 5000 + 5000
    omega
  | ⟨1, _⟩ =>
    show win1_8.index _ (1 : Fin 2) * 128 ≤ (i 1).val ∧ (i 1).val < win1_8.index _ (1 : Fin 2) * 128 + 128
    rw [e1]
    omega

/-! ## The output array after the launch -/

/-- **The output array after the launch `cfg1`** is `regionOut` of its eight input arrays as the launch finds them. -/
theorem region1_out (c : Dev nD) :
    (dat1 (F := Ideal) V c).arrAt 8 cfg1.N
      = Cert.GraphConv.regionOut (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) :=
  (dat1 (F := Ideal) V c).arrAt_eq_of_cover 8 (outFn V c) (fun t _ => flushed_eq V c t) cover

end Cert.KernelIdeal.KValue1

end
-- ==== Proof.KernelValue.lean ====
/-
  What the kernel's program leaves in its result array: one launch applied to the node features, and a second launch
  applied to the first one's result.

  The first launch's output array is the launch's function of its eight input arrays, which the first stretch of host
  operations computed from the node features, the edge list and the first layer's weights. The second launch finds the
  first one's output in place of the node features, the neighbour sums recomputed from it over the same edge list, the
  same reciprocal and mask columns, and the second layer's weights; none of the arguments it reads was written meanwhile.
-/
import proofs.«135691_j81252191306417_1_alg».proof.Proof.KernelHost
import proofs.«135691_j81252191306417_1_alg».proof.Proof.KernelRegion0
import proofs.«135691_j81252191306417_1_alg».proof.Proof.KernelRegion1
import proofs.«135691_j81252191306417_1_alg».proof.Proof.KernelRun

set_option maxRecDepth 16384

noncomputable section

namespace Cert.KernelIdeal.KOut

open Cert.KernelIdeal Cert.KernelIdeal.Gen Cert.KernelIdeal.KHost Idealize.ShloMosaic Idealize.ShloMosaic.TcCoe Idealize.SL.Sem

variable (m : (ℓ : Loc nD τ sig) → Buf (Elt Ideal) ℓ) (ρ : Dev nD → PrngReg)

/-- The first launch's result, from the launch memory. -/
def hidden (c : Dev nD) : GraphConv.Mat 40000 128 :=
  kLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The program's result, from the launch memory: the second launch on the first one's result. -/
def result (c : Dev nD) : GraphConv.Mat 40000 128 :=
  kLayer (hidden m c) (m ((c : Thread nD τ).loc main_arg1)) (m ((c : Thread nD τ).loc main_arg6)) (m ((c : Thread nD τ).loc main_arg7)) (m ((c : Thread nD τ).loc main_arg8)) (m ((c : Thread nD τ).loc main_arg9))

/-- When the first launch has ended its output array holds the launch's function of the first layer's inputs. -/
theorem out0 (c : Dev nD) : W2 m ρ c (Proc.devRef .tc main_v31) = hidden m c := by
  refine (W2_arr m ρ c 8).trans ((Cert.KernelIdeal.KValue0.region0_out (V1 m ρ) c).trans ?_)
  rw [entry0_x, entry0_ns, entry0_recip, entry0_mask, entry0_ws, entry0_bs, entry0_wn, entry0_bn]
  rfl

set_option maxHeartbeats 2000000 in
/-- When the second launch has ended its output array holds the launch's function of the first result and the second
    layer's inputs. -/
theorem out1 (c : Dev nD) : W4 m ρ c (Proc.devRef .tc main_v63) = result m c := by
  refine (W4_arr m ρ c 8).trans ((Cert.KernelIdeal.KValue1.region1_out (V3 m ρ) c).trans ?_)
  rw [entry1_x, entry1_ns, entry1_recip, entry1_mask, entry1_ws, entry1_bs, entry1_wn, entry1_bn,
    W2_arg1, W2_arg6, W2_arg7, W2_arg8, W2_arg9, out0]
  rfl

set_option maxHeartbeats 2000000 in
/-- Every weakly fair execution of the kernel's program ends with the result array at `result` and the arguments as
    launched. -/
theorem run_value : θ_run defs (onTc (τ := τ) (main (F := Ideal))) ⟨m, fun _ => 0, ρ⟩ (fun r => ∀ c : Dev nD,
      r.2.mem ((c.tc : Thread nD τ).loc main_v63) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (out1 m ρ c), (h c).2⟩) (Cert.KernelIdeal.GenRun.run_out (F := Ideal) m ρ)

end Cert.KernelIdeal.KOut

end
-- ==== Proof.RefValue.lean ====
/-
  The reference's whole run as one layer applied twice, and one layer read entry by entry.

  The reference program applies the same chain of host operations twice: to the node features, and to the result of the
  first application, with the edge list shared. The chain is named here piece by piece as functions of its inputs: the
  destination and source columns of the edge list as index arrays, the per-node neighbour count (a scatter-add of ones),
  the per-node neighbour sum (a scatter-add of the gathered source rows), and the layer itself. The run's composed term is
  then, syntactically, the layer of the layer.

  Read at a node `n` and a feature `j`, the layer is `max (self n j + nbr n j) 0` with

    self n j = (∑ k, x n k · Ws j k) + bs j
    nbr  n j = if 0 < cnt n then (∑ k, (ns n k / max (cnt n) 1) · Wn j k) + bn j else 0

  where `ns` and `cnt` are the two scatter-adds, left unopened: each product against a transposed weight matrix reads
  row `j` of the matrix, each broadcast reads its operand at the coordinates it keeps, the word `0x00000000` is the
  number zero and `0x3F800000` the number one, the comparison `cnt > 0` is the bit of `0 < cnt`, and the select on that
  bit is the `if`.
-/
import proofs.«135691_j81252191306417_1_alg».proof.Proof.RefRun
import proofs.«135691_j81252191306417_1_alg».proof.Proof.RefRead
import proofs.«135691_j81252191306417_1_alg».proof.Proof.Layer
import proofs.«135691_j81252191306417_1_alg».proof.Proof.LibRowLinear

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The pieces of one layer, with exactly the printed operations -/

/-- The edge list as a buffer's contents. -/
abbrev Edges : Type := (⟨S2x640000, .i32⟩ : BufTy).Contents (Elt Ideal)
/-- A node-by-feature array. -/
abbrev Feat : Type := (⟨S40000x128, .f32⟩ : BufTy).Contents (Elt Ideal)
/-- A weight matrix. -/
abbrev Wt : Type := (⟨S128x128, .f32⟩ : BufTy).Contents (Elt Ideal)
/-- A bias. -/
abbrev Bias : Type := (⟨S128, .f32⟩ : BufTy).Contents (Elt Ideal)

/-- The destination of every edge (row 0 of the edge list), as a column of scatter indices. -/
def dstIdx (e : Edges) : (⟨S640000x1, .i32⟩ : BufTy).Contents (Elt Ideal) :=
  broadcastInDim S640000x1 ![0] bcast_S640000_S640000x1_0 (shapeCast _ (extractStridedSlice S1x640000 ![0, 0] e slices_S2x640000_S1x640000_0_0) shapeCasts_S1x640000_S640000)

/-- The source of every edge (row 1 of the edge list, a negative entry counted from the end), as a column of gather indices. -/
def srcIdx (e : Edges) : (⟨S640000x1, .i32⟩ : BufTy).Contents (Elt Ideal) :=
  broadcastInDim S640000x1 ![0] bcast_S640000_S640000x1_0 (select (cmpi .slt (shapeCast _ (extractStridedSlice S1x640000 ![1, 0] e slices_S2x640000_S1x640000_1_0) shapeCasts_S1x640000_S640000) (broadcastInDim S640000 ![] bcast_S_S640000 (constantI S_ 32 0#32))) (addi (shapeCast _ (extractStridedSlice S1x640000 ![1, 0] e slices_S2x640000_S1x640000_1_0) shapeCasts_S1x640000_S640000) (broadcastInDim S640000 ![] bcast_S_S640000 (constantI S_ 32 40000#32))) (shapeCast _ (extractStridedSlice S1x640000 ![1, 0] e slices_S2x640000_S1x640000_1_0) shapeCasts_S1x640000_S640000))

/-- The number of edges into each node: ones scattered and added at the destinations. -/
def cntT (e : Edges) : (⟨S40000, .f32⟩ : BufTy).Contents (Elt Ideal) :=
  Host.scatterAdd (F := Ideal) scatter_S40000_S640000x1_S640000_n_0_0_1 (broadcastInDim S40000 ![] bcast_S_S40000 (constant (F := Ideal) S_ .f32 0x00000000#32)) (dstIdx e) (broadcastInDim S640000 ![] bcast_S_S640000 (constant (F := Ideal) S_ .f32 0x3F800000#32))

/-- The sum of the source rows over the edges into each node: the gathered rows scattered and added at the destinations. -/
def nsT (x : Feat) (e : Edges) : Feat :=
  Host.scatterAdd (F := Ideal) scatter_S40000x128_S640000x1_S640000x128_1_0_0_1 (broadcastInDim S40000x128 ![] bcast_S_S40000x128 (constant (F := Ideal) S_ .f32 0x00000000#32)) (dstIdx e) (Host.gather gather_S40000x128_S640000x1_S640000x128_1_0_n_n_0_1_1128 x (srcIdx e))

/-- One layer of the reference, as printed. -/
def refLayer (x : Feat) (e : Edges) (Ws : Wt) (bs : Bias) (Wn : Wt) (bn : Bias) : Feat :=
  maximumf (F := Ideal) (addf (F := Ideal) (addf (F := Ideal) (Host.dotGeneral (F := Ideal) (φ₁ := .f32) (φ₂ := .f32) dot_S40000x128_S128x128_S40000x128_1_0_0_1_n_n none x (transpose S128x128 [1, 0] Ws transposes_S128x128_S128x128_1_0)) (broadcastInDim S40000x128 ![0, 1] bcast_S1x128_S40000x128_0_1 (broadcastInDim S1x128 ![1] bcast_S128_S1x128_1 bs))) (select (broadcastInDim S40000x128 ![0, 1] bcast_S40000x1_S40000x128_0_1 (cmpf (F := Ideal) .ogt (broadcastInDim S40000x1 ![0] bcast_S40000_S40000x1_0 (cntT e)) (broadcastInDim S40000x1 ![] bcast_S_S40000x1 (constant (F := Ideal) S_ .f32 0x00000000#32)))) (addf (F := Ideal) (Host.dotGeneral (F := Ideal) (φ₁ := .f32) (φ₂ := .f32) dot_S40000x128_S128x128_S40000x128_1_0_0_1_n_n none (Host.divf (F := Ideal) (nsT x e) (broadcastInDim S40000x128 ![0, 1] bcast_S40000x1_S40000x128_0_1 (broadcastInDim S40000x1 ![0] bcast_S40000_S40000x1_0 (maximumf (F := Ideal) (cntT e) (broadcastInDim S40000 ![] bcast_S_S40000 (constant (F := Ideal) S_ .f32 0x3F800000#32)))))) (transpose S128x128 [1, 0] Wn transposes_S128x128_S128x128_1_0)) (broadcastInDim S40000x128 ![0, 1] bcast_S1x128_S40000x128_0_1 (broadcastInDim S1x128 ![1] bcast_S128_S1x128_1 bn))) (broadcastInDim S40000x128 ![] bcast_S_S40000x128 (id (constant (F := Ideal) S_ .f32 0x00000000#32))))) (broadcastInDim S40000x128 ![] bcast_S_S40000x128 (constant (F := Ideal) S_ .f32 0x00000000#32))

/-! ## The run is the layer of the layer -/

set_option maxRecDepth 8192 in
/-- The composed term of the whole run is one layer applied to the node features and then again to its own result, with
    the edge list shared: the two terms are the same once the pieces are unfolded. -/
theorem res_eq (m : (ℓ : Loc nD τ sig) → Buf (Elt Ideal) ℓ) (c : Dev nD) :
    ValueP.res_main_v77 (F := Ideal) m c
      = refLayer (refLayer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))
          (m ((c.tc : Thread nD τ).loc main_arg1))
          (m ((c.tc : Thread nD τ).loc main_arg6)) (m ((c.tc : Thread nD τ).loc main_arg7))
          (m ((c.tc : Thread nD τ).loc main_arg8)) (m ((c.tc : Thread nD τ).loc main_arg9)) := by
  unfold ValueP.res_main_v77 refLayer nsT cntT dstIdx srcIdx
  rfl

/-! ## The layout operations of one layer, read at an index -/

section Layout
variable {α : Type}

/-- A scalar broadcast to any shape reads the scalar everywhere. -/
theorem scalarB_apply {t : Shape} (dims : Fin S_.rank → Fin t.rank) (h : S_.BroadcastsInDim t dims) (y : S_.Idx → α)
    (i : t.Idx) : broadcastInDim t dims h y i = y ix0 :=
  broadcastInDim_apply dims h y i ix0 (fun a => a.elim0)

/-- A length-`40000` array set up as a column reads, in row `n`, its entry `n`. -/
theorem col1_apply (v : S40000.Idx → α) (n : Fin 40000) :
    broadcastInDim S40000x1 ![0] bcast_S40000_S40000x1_0 v (ix2 n (0 : Fin 1)) = v (ix1 n) :=
  broadcastInDim_apply _ bcast_S40000_S40000x1_0 v (ix2 n (0 : Fin 1)) (ix1 n) (fun a => match a with
    | ⟨0, _⟩ => by show (n : Nat) = if (40000 : Nat) = 1 then 0 else (n : Nat); rw [if_neg (by decide)])

/-- A column spread over the `128` features reads, at `(n, j)`, the column's row `n`. -/
theorem col128_apply (y : S40000x1.Idx → α) (n : Fin 40000) (j : Fin 128) :
    broadcastInDim S40000x128 ![0, 1] bcast_S40000x1_S40000x128_0_1 y (ix2 n j) = y (ix2 n (0 : Fin 1)) :=
  broadcastInDim_apply _ bcast_S40000x1_S40000x128_0_1 y (ix2 n j) (ix2 n (0 : Fin 1)) (fun a => match a with
    | ⟨0, _⟩ => by show (n : Nat) = if (40000 : Nat) = 1 then 0 else (n : Nat); rw [if_neg (by decide)]
    | ⟨1, _⟩ => by show 0 = if (1 : Nat) = 1 then 0 else (j : Nat); rw [if_pos rfl])

/-- A bias set up as a row and spread over the nodes reads, at `(n, j)`, its entry `j`. -/
theorem biasB_apply (b : S128.Idx → α) (n : Fin 40000) (j : Fin 128) :
    broadcastInDim S40000x128 ![0, 1] bcast_S1x128_S40000x128_0_1 (broadcastInDim S1x128 ![1] bcast_S128_S1x128_1 b) (ix2 n j)
      = b (ix1 j) := by
  refine (broadcastInDim_apply _ bcast_S1x128_S40000x128_0_1 _ (ix2 n j) (ix2 (0 : Fin 1) j) (fun a => match a with
    | ⟨0, _⟩ => by show 0 = if (1 : Nat) = 1 then 0 else (n : Nat); rw [if_pos rfl]
    | ⟨1, _⟩ => by show (j : Nat) = if (128 : Nat) = 1 then 0 else (j : Nat); rw [if_neg (by decide)])).trans ?_
  exact broadcastInDim_apply _ bcast_S128_S1x128_1 b (ix2 (0 : Fin 1) j) (ix1 j) (fun a => match a with
    | ⟨0, _⟩ => by show (j : Nat) = if (128 : Nat) = 1 then 0 else (j : Nat); rw [if_neg (by decide)])

/-- The transposed weight matrix reads, at `(k, j)`, the matrix at `(j, k)`. -/
theorem transposeW_apply (W : S128x128.Idx → α) (k j : Fin 128) :
    transpose S128x128 [1, 0] W transposes_S128x128_S128x128_1_0 (ix2 k j) = W (ix2 j k) :=
  transpose_apply [1, 0] W transposes_S128x128_S128x128_1_0 (ix2 k j) (ix2 j k) (fun b => match b with
    | ⟨0, _⟩ => rfl
    | ⟨1, _⟩ => rfl)

end Layout

/-! ## The terms of one layer, read at a node and a feature -/

/-- A product against the transposed weight matrix: feature `j` of the image of row `n` reads row `j` of the matrix. -/
theorem dotT_apply (a : Feat) (W : Wt) (n : Fin 40000) (j : Fin 128) :
    Host.dotGeneral (F := Ideal) (φ₁ := .f32) (φ₂ := .f32) dot_S40000x128_S128x128_S40000x128_1_0_0_1_n_n none a
        (transpose S128x128 [1, 0] W transposes_S128x128_S128x128_1_0) (ix2 n j)
      = ∑ k : Fin 128, a (ix2 n k) * W (ix2 j k) := by
  refine (RowLinear.dotGeneral_apply dot_S40000x128_S128x128_S40000x128_1_0_0_1_n_n rfl rfl rfl rfl rfl rfl none a
    (transpose S128x128 [1, 0] W transposes_S128x128_S128x128_1_0) n j).trans ?_
  exact Finset.sum_congr rfl fun k _ => congrArg (a (ix2 n k) * ·) (transposeW_apply W k j)

/-- The self term: row `n` of the features against row `j` of the weights, plus the bias. -/
theorem self_apply (x : Feat) (Ws : Wt) (bs : Bias) (n : Fin 40000) (j : Fin 128) :
    addf (F := Ideal) (Host.dotGeneral (F := Ideal) (φ₁ := .f32) (φ₂ := .f32) dot_S40000x128_S128x128_S40000x128_1_0_0_1_n_n none x (transpose S128x128 [1, 0] Ws transposes_S128x128_S128x128_1_0)) (broadcastInDim S40000x128 ![0, 1] bcast_S1x128_S40000x128_0_1 (broadcastInDim S1x128 ![1] bcast_S128_S1x128_1 bs)) (ix2 n j)
      = GraphConv.selfAt x Ws bs n j :=
  congrArg₂ (· + ·) (dotT_apply x Ws n j) (biasB_apply bs n j)

/-- The divisor of the mean: `max (cnt n) 1`, the same in every feature. -/
theorem denom_apply (cnt : (⟨S40000, .f32⟩ : BufTy).Contents (Elt Ideal)) (n : Fin 40000) (k : Fin 128) :
    broadcastInDim S40000x128 ![0, 1] bcast_S40000x1_S40000x128_0_1 (broadcastInDim S40000x1 ![0] bcast_S40000_S40000x1_0 (maximumf (F := Ideal) cnt (broadcastInDim S40000 ![] bcast_S_S40000 (constant (F := Ideal) S_ .f32 0x3F800000#32)))) (ix2 n k)
      = max (cnt (ix1 n)) 1 := by
  refine (col128_apply _ n k).trans ((col1_apply _ n).trans ?_)
  refine congrArg (max (cnt (ix1 n))) ((scalarB_apply _ bcast_S_S40000 _ (ix1 n)).trans ?_)
  exact RowLinear.ofBits_one_f32

/-- The neighbour term where it is kept: the mean of the neighbour rows against row `j` of the weights, plus the bias. -/
theorem nbr_apply (ns : Feat) (cnt : (⟨S40000, .f32⟩ : BufTy).Contents (Elt Ideal)) (Wn : Wt) (bn : Bias) (n : Fin 40000) (j : Fin 128) :
    addf (F := Ideal) (Host.dotGeneral (F := Ideal) (φ₁ := .f32) (φ₂ := .f32) dot_S40000x128_S128x128_S40000x128_1_0_0_1_n_n none (Host.divf (F := Ideal) ns (broadcastInDim S40000x128 ![0, 1] bcast_S40000x1_S40000x128_0_1 (broadcastInDim S40000x1 ![0] bcast_S40000_S40000x1_0 (maximumf (F := Ideal) cnt (broadcastInDim S40000 ![] bcast_S_S40000 (constant (F := Ideal) S_ .f32 0x3F800000#32)))))) (transpose S128x128 [1, 0] Wn transposes_S128x128_S128x128_1_0)) (broadcastInDim S40000x128 ![0, 1] bcast_S1x128_S40000x128_0_1 (broadcastInDim S1x128 ![1] bcast_S128_S1x128_1 bn)) (ix2 n j)
      = (∑ k : Fin 128, Ideal.div (ns (ix2 n k)) (max (cnt (ix1 n)) 1) * Wn (ix2 j k)) + bn (ix1 j) := by
  refine congrArg₂ (· + ·) ((dotT_apply _ Wn n j).trans ?_) (biasB_apply bn n j)
  exact Finset.sum_congr rfl fun k _ => congrArg (fun d => Ideal.div (ns (ix2 n k)) d * Wn (ix2 j k)) (denom_apply cnt n k)

/-- The mask at `(n, j)`: the comparison of the count of node `n` with zero. -/
theorem mask_apply (cnt : (⟨S40000, .f32⟩ : BufTy).Contents (Elt Ideal)) (n : Fin 40000) (j : Fin 128) :
    broadcastInDim S40000x128 ![0, 1] bcast_S40000x1_S40000x128_0_1 (cmpf (F := Ideal) .ogt (broadcastInDim S40000x1 ![0] bcast_S40000_S40000x1_0 cnt) (broadcastInDim S40000x1 ![] bcast_S_S40000x1 (constant (F := Ideal) S_ .f32 0x00000000#32))) (ix2 n j)
      = BitVec.ofBool (decide (0 < cnt (ix1 n))) := by
  refine (col128_apply _ n j).trans ?_
  refine (congrArg₂ (FloatOps.cmpf (F := Ideal) (φ := .f32) .ogt) (col1_apply cnt n) ((scalarB_apply _ bcast_S_S40000x1 _ (ix2 n (0 : Fin 1))).trans Ideal.ofBits_zero_f32)).trans ?_
  rfl

/-- A select on the bit of a decided proposition is the `if`. -/
theorem select_ofBool_decide {β : Type} (p : Prop) [Decidable p] (a b : β) :
    Scalar.select (BitVec.ofBool (decide p)) a b = if p then a else b := by
  by_cases h : p
  · rw [decide_eq_true h, if_pos h]; exact select_one a b
  · rw [decide_eq_false h, if_neg h]; exact select_zero a b

/-- A select between equal operands on equal bits. -/
theorem select_congr {β : Type} {c c' : BitVec 1} {a a' b b' : β} (hc : c = c') (ha : a = a') (hb : b = b') :
    Scalar.select c a b = Scalar.select c' a' b' := by
  subst hc ha hb; rfl

/-- The zero array reads the number zero. -/
theorem zeroB_apply (i : S40000x128.Idx) :
    broadcastInDim S40000x128 ![] bcast_S_S40000x128 (constant (F := Ideal) S_ .f32 0x00000000#32) i = (0 : EReal) :=
  (scalarB_apply _ bcast_S_S40000x128 _ i).trans Ideal.ofBits_zero_f32

/-! ## One layer is the layer of the specification -/

/-- The layer at node `n` and feature `j`. -/
theorem refLayer_apply (x : Feat) (e : Edges) (Ws : Wt) (bs : Bias) (Wn : Wt) (bn : Bias) (n : Fin 40000) (j : Fin 128) :
    refLayer x e Ws bs Wn bn (ix2 n j)
      = max (GraphConv.selfAt x Ws bs n j + GraphConv.nbrRefAt (nsT x e) (cntT e) Wn bn n j) 0 := by
  unfold refLayer GraphConv.nbrRefAt
  generalize nsT x e = ns
  generalize cntT e = cnt
  refine congrArg₂ max (congrArg₂ (· + ·) (self_apply x Ws bs n j) ?_) (zeroB_apply (ix2 n j))
  refine (select_congr (mask_apply cnt n j) (nbr_apply ns cnt Wn bn n j) (zeroB_apply (ix2 n j))).trans ?_
  exact select_ofBool_decide _ _ _

/-- **One layer of the reference is the specification's layer** at the reference's own neighbour sums and counts. -/
theorem refLayer_eq (x : Feat) (e : Edges) (Ws : Wt) (bs : Bias) (Wn : Wt) (bn : Bias) :
    refLayer x e Ws bs Wn bn = GraphConv.layer x (nsT x e) (cntT e) Ws bs Wn bn := by
  funext i
  obtain ⟨n, j, rfl⟩ : ∃ (n : Fin 40000) (j : Fin 128), i = ix2 n j := ⟨i 0, i 1, eq_ix2 i⟩
  rw [GraphConv.layer_apply]
  exact refLayer_apply x e Ws bs Wn bn n j

end Cert.ReferenceIdeal.RefValue

end
-- ==== Proof.LayerAlgebra.lean ====
/-
  The two arrangements of the neighbour term of a mean-aggregating graph-convolution layer agree on the extended reals,
  entry by entry, and so do the two layers built from them.

  Write `y = max c 1` for the clamped count. Then `y ≥ 1`, so `y ≠ 0` and the quotient `a / y` is the product `a · y⁻¹`;
  and `r = y⁻¹` is nonnegative and is not `⊤` (the inverse of a real number at least one, or `0` when `y = ⊤`). Multiplication
  by such an `r` distributes over every finite sum of extended reals, infinite terms of either sign included, and
  `r · (a · w) = (a · r) · w` by commutativity and associativity alone. Hence

    (∑ k, a k · w k) · (1 / y) = ∑ k, (a k / y) · w k

  with no finiteness assumed of `a` or `w`. Where the count is positive the kernel's mask is `1` and the two neighbour terms
  are the two sides of this identity plus the same bias. Where it is not, every neighbour sum is `0` by hypothesis, every
  product `0 · w` is `0`, and the kernel's term is `0 · (1 / y) + 0 · b = 0`, the reference's value there.
-/
import Mathlib.Data.EReal.Inv
import proofs.«135691_j81252191306417_1_alg».proof.Proof.Layer
import proofs.«135691_j81252191306417_1_alg».proof.Proof.LibRowLinear

noncomputable section

namespace Cert.GraphConv

open Idealize.ShloMosaic Idealize.ShloMosaic.ValueIdx

/-! ### Scalar facts -/

/-- A number clamped below by one is not zero. -/
theorem max_one_ne_zero (c : EReal) : max c 1 ≠ 0 :=
  ne_of_gt (lt_of_lt_of_le zero_lt_one (le_max_right c 1))

/-- The reciprocal of a number that is at least one is nonnegative. -/
theorem inv_max_one_nonneg (c : EReal) : 0 ≤ (max c 1)⁻¹ :=
  EReal.inv_nonneg_of_nonneg (le_trans zero_le_one (le_max_right c 1))

/-- A reciprocal is never `⊤`. -/
theorem inv_max_one_ne_top (c : EReal) : (max c 1)⁻¹ ≠ ⊤ :=
  ne_of_lt (EReal.inv_lt_top _)

/-- Dividing by a number that is at least one is multiplying by its reciprocal. -/
theorem div_max_one (x c : EReal) : Ideal.div x (max c 1) = x * (max c 1)⁻¹ := by
  rw [Ideal.div, if_neg (max_one_ne_zero c)]

/-- **A nonnegative factor other than `⊤` distributes over a finite sum** of extended reals, whatever the terms. -/
theorem mul_finset_sum_of_nonneg_of_ne_top {K : Nat} (r : EReal) (h0 : 0 ≤ r) (ht : r ≠ ⊤) (a : Fin K → EReal)
    (s : Finset (Fin K)) :
    r * ∑ k ∈ s, a k = ∑ k ∈ s, r * a k := by
  induction s using Finset.induction_on with
  | empty => rw [Finset.sum_empty, Finset.sum_empty, mul_zero]
  | insert k s hk ih =>
    rw [Finset.sum_insert hk, Finset.sum_insert hk, EReal.left_distrib_of_nonneg_of_ne_top h0 ht, ih]

/-- The same over all of `Fin K`. -/
theorem mul_sum_of_nonneg_of_ne_top {K : Nat} (r : EReal) (h0 : 0 ≤ r) (ht : r ≠ ⊤) (a : Fin K → EReal) :
    r * ∑ k, a k = ∑ k, r * a k :=
  mul_finset_sum_of_nonneg_of_ne_top r h0 ht a Finset.univ

/-- **The reciprocal of the clamped count moves inside the product**: scaling a row-by-row product by `1 / max c 1`
    afterwards is the product of the row scaled beforehand. -/
theorem sum_mul_one_div_max_one {K : Nat} (a w : Fin K → EReal) (c : EReal) :
    (∑ k, a k * w k) * Ideal.div 1 (max c 1) = ∑ k, Ideal.div (a k) (max c 1) * w k := by
  rw [div_max_one, one_mul, mul_comm,
    mul_sum_of_nonneg_of_ne_top _ (inv_max_one_nonneg c) (inv_max_one_ne_top c)]
  refine Finset.sum_congr rfl fun k _ => ?_
  rw [div_max_one, ← mul_assoc, mul_comm (max c 1)⁻¹ (a k)]

/-- A product against the zero row is zero. -/
theorem sum_zero_mul {K : Nat} (a w : Fin K → EReal) (h : ∀ k, a k = 0) : ∑ k, a k * w k = 0 :=
  Finset.sum_eq_zero fun k _ => by rw [h k, zero_mul]

/-! ### The neighbour term and the layer -/

/-- **The kernel's neighbour term is the reference's**, at every node and feature, provided the neighbour sums of a node
    with no neighbour are zero. -/
theorem nbrKerAt_eq_nbrRefAt (ns : Mat 40000 128) (cnt : Row 40000) (Wn : Mat 128 128) (bn : Row 128) (n : Fin 40000)
    (j : Fin 128) (hz : ¬ 0 < cnt (ix1 n) → ∀ k : Fin 128, ns (ix2 n k) = 0) :
    nbrKerAt ns cnt Wn bn n j = nbrRefAt ns cnt Wn bn n j := by
  rw [nbrKerAt, nbrRefAt]
  by_cases hc : 0 < cnt (ix1 n)
  · rw [if_pos hc, if_pos hc, one_mul,
      sum_mul_one_div_max_one (fun k => ns (ix2 n k)) (fun k => Wn (ix2 j k)) (cnt (ix1 n))]
  · rw [if_neg hc, if_neg hc, zero_mul, add_zero,
      sum_zero_mul (fun k => ns (ix2 n k)) (fun k => Wn (ix2 j k)) (hz hc), zero_mul]

/-- **The two layers are the same array.** -/
theorem layerK_eq_layer (x ns : Mat 40000 128) (cnt : Row 40000) (Ws : Mat 128 128) (bs : Row 128) (Wn : Mat 128 128)
    (bn : Row 128) (hz : ∀ n : Fin 40000, ¬ 0 < cnt (ix1 n) → ∀ k : Fin 128, ns (ix2 n k) = 0) :
    layerK x ns cnt Ws bs Wn bn = layer x ns cnt Ws bs Wn bn := by
  funext i
  obtain ⟨n, j, rfl⟩ : ∃ (n : Fin 40000) (j : Fin 128), i = ix2 n j := ⟨i 0, i 1, eq_ix2 i⟩
  rw [layerK_apply, layer_apply, nbrKerAt_eq_nbrRefAt ns cnt Wn bn n j (hz n)]

end Cert.GraphConv

end
-- ==== Proof.LibScatterCount.lean ====
/-
  Two scatter-adds that share one array of start indices: a COUNT scatter and a ROW scatter.

  The setting. An array `idx` of shape `[E, 1]` holds one start index per edge `e`, read as a signed
  integer and not clamped (index_vector_dim = 1, scatter_dims_to_operand_dims = [0],
  inserted_window_dims = [0]). Two host scatter-adds use it:

    • the ROW scatter `d2` of updates `[E, D]` into an operand `[N, D]` (update_window_dims = [1]):
      update `(e, k)` lands at `(idx e, k)`;
    • the COUNT scatter `d1` of updates `[E]` into an operand `[N]` (update_window_dims = []):
      update `e` lands at `idx e`.

  On the operand's axis 0 both land at start plus window coordinate, the window coordinate being `0`
  there (axis 0 is an inserted axis) and the start the SAME word `idx (e, 0)` read signed. Hence:

    • `rows_start`: if the row scatter's update `j` lands at operand index `i`, then the start index of
      edge `j 0` is the row `i 0`;
    • `count_lands`: if the start index of edge `e` is `n` (a row of the operand), the count scatter's
      update `e` lands at `n`;
    • `rows_zero_of_count_not_pos`: scattering ones over zeros with `d1` gives at `n` the sum of `1` over
      the edges that land on `n`, which is at least `1` as soon as one edge does; so where that count is not
      positive no edge lands on `n`, the row scatter's set of updates landing on `(n, k)` is empty for every
      `k`, and the row scatter of ANY updates over zeros is `0` there.

  The extents `N`, `E`, `D` and the index width `w` are arbitrary. The dimension numbers enter as equations
  on the records' fields, which hold by `rfl` at a literal record.
-/
import Idealize.ShloMosaic.PureOps.Ideal.Laws
import Idealize.ShloMosaic.Lib.ValueIdx

open scoped BigOperators

namespace Idealize.ShloMosaic.ScatterCount

open Idealize.ShloMosaic Idealize.ShloMosaic.ValueIdx

/-- THE ROW SCATTER'S LANDING ROW. With update_window_dims = [1], inserted_window_dims = [0],
    scatter_dims_to_operand_dims = [0] and index_vector_dim = 1, an update `j = (e, k)` of shape `[E, D]` that
    lands at operand index `i` of `[N, D]` has its edge's start index, the word `idx (e, 0)` read signed, equal to
    the row `i 0`: on axis 0 the landing coordinate is the start plus the window coordinate `0` of an inserted
    axis, and landing inside the operand makes that sum a natural number, the coordinate `i 0`. -/
theorem rows_start {N E D w : Nat}
    (d2 : ScatterDims ⟨2, ![N, D]⟩ ⟨2, ![E, 1]⟩ ⟨2, ![E, D]⟩)
    (h2u : d2.updateWindowDims = [1]) (h2i : d2.insertedWindowDims = [0]) (h2s : d2.scatterDimsToOperandDims = [0]) (h2v : d2.indexVectorDim = 1)
    (idx : IVec ⟨2, ![E, 1]⟩ w) (j : (⟨2, ![E, D]⟩ : Shape).Idx) (i : (⟨2, ![N, D]⟩ : Shape).Idx)
    (h : d2.resultIdx? j idx = some i) :
    (idx (ix2 (n0 := E) (n1 := 1) (j 0) 0)).toInt = ((i 0).val : Int) := by
  obtain ⟨uw, iw, sd, iv, wf⟩ := d2
  simp only at h2u h2i h2s h2v
  subst h2u h2i h2s h2v
  unfold ScatterDims.resultIdx? at h
  split at h
  · rename_i hb
    have hi := congrArg Fin.val (congrFun (Option.some.inj h) 0)
    have h0 := hb 0
    have hw : (ScatterDims.mk (s := ⟨2, ![N, D]⟩) (si := ⟨2, ![E, 1]⟩) (u := ⟨2, ![E, D]⟩) [1] [0] [0] 1 wf).window j 0 = 0 := by
      unfold ScatterDims.window
      rw [dif_neg]
      show (0 : Fin 2) ∉ (List.finRange 2).filter (· ∉ [0])
      decide
    have hs : (ScatterDims.mk (s := ⟨2, ![N, D]⟩) (si := ⟨2, ![E, 1]⟩) (u := ⟨2, ![E, D]⟩) [1] [0] [0] 1 wf).start j idx 0
        = (idx (ix2 (n0 := E) (n1 := 1) (j 0) 0)).toInt := by
      unfold ScatterDims.start
      rw [dif_pos (show (0 : Fin 2) ∈ [0] from List.mem_singleton.mpr rfl)]
      congr 2
      funext b
      refine Fin.ext ?_
      match b with
      | ⟨0, _⟩ => rfl
      | ⟨1, _⟩ => rfl
    rw [hw, hs] at h0
    simp only at hi
    rw [hw, hs] at hi
    omega
  · exact absurd h (by simp)

/-- THE COUNT SCATTER LANDS WHERE THE START INDEX SAYS. With update_window_dims = [], inserted_window_dims = [0],
    scatter_dims_to_operand_dims = [0] and index_vector_dim = 1, if the start index of edge `e`, the word
    `idx (e, 0)` read signed, is a row `n` of the operand `[N]`, then update `e` of shape `[E]` lands at `n`: its one
    landing coordinate is the start plus the window coordinate `0`, which is `n`, non-negative and below `N`. -/
theorem count_lands {N E w : Nat}
    (d1 : ScatterDims ⟨1, ![N]⟩ ⟨2, ![E, 1]⟩ ⟨1, ![E]⟩)
    (h1u : d1.updateWindowDims = []) (h1i : d1.insertedWindowDims = [0]) (h1s : d1.scatterDimsToOperandDims = [0]) (h1v : d1.indexVectorDim = 1)
    (idx : IVec ⟨2, ![E, 1]⟩ w) (e : Fin E) (n : Fin N)
    (h : (idx (ix2 e (0 : Fin 1))).toInt = (n.val : Int)) :
    d1.resultIdx? (ix1 e) idx = some (ix1 n) := by
  obtain ⟨uw, iw, sd, iv, wf⟩ := d1
  simp only at h1u h1i h1s h1v
  subst h1u h1i h1s h1v
  have hw : ∀ a, (ScatterDims.mk (s := ⟨1, ![N]⟩) (si := ⟨2, ![E, 1]⟩) (u := ⟨1, ![E]⟩) [] [0] [0] 1 wf).window (ix1 e) a = 0 := by
    intro a
    obtain rfl : a = 0 := Subsingleton.elim _ _
    unfold ScatterDims.window
    rw [dif_neg]
    show (0 : Fin 1) ∉ (List.finRange 1).filter (· ∉ [0])
    decide
  have hs : ∀ a, (ScatterDims.mk (s := ⟨1, ![N]⟩) (si := ⟨2, ![E, 1]⟩) (u := ⟨1, ![E]⟩) [] [0] [0] 1 wf).start (ix1 e) idx a
      = (n.val : Int) := by
    intro a
    obtain rfl : a = 0 := Subsingleton.elim _ _
    rw [← h]
    unfold ScatterDims.start
    rw [dif_pos (show (0 : Fin 1) ∈ [0] from List.mem_singleton.mpr rfl)]
    congr 2
    funext b
    refine Fin.ext ?_
    match b with
    | ⟨0, _⟩ => rfl
    | ⟨1, _⟩ => rfl
  unfold ScatterDims.resultIdx?
  rw [dif_pos]
  · congr 1
    funext a
    refine Fin.ext ?_
    obtain rfl : a = 0 := Subsingleton.elim _ _
    show (_ + _ : Int).toNat = n.val
    rw [hw, hs]
    omega
  · intro a
    rw [hw, hs]
    obtain rfl : a = 0 := Subsingleton.elim _ _
    have : n.val < N := n.isLt
    show 0 ≤ (n.val : Int) + (0 : Nat) ∧ (n.val : Int) + (0 : Nat) < (N : Int)
    omega

/-- NO COUNT, NO ROWS. Two scatter-adds over the same start indices `idx : [E, 1]`: `d1` scatters updates `[E]` into
    `[N]` and `d2` scatters updates `[E, D]` into `[N, D]`, both along the operand's axis 0. If scattering ones over
    zeros with `d1` is not positive at `n`, then scattering any updates over zeros with `d2` is `0` at `(n, k)` for
    every `k`. For an update `j` of `d2` landing on `(n, k)` would have the start index of edge `j 0` equal to `n`
    (`rows_start`), so update `j 0` of `d1` would land on `n` (`count_lands`) and the count there, a sum of ones
    over a set holding `j 0`, would be at least `1`. So no update of `d2` lands on `(n, k)`: its sum is empty and
    the result is the operand's `0`. -/
theorem rows_zero_of_count_not_pos {N E D : Nat}
    (d2 : ScatterDims ⟨2, ![N, D]⟩ ⟨2, ![E, 1]⟩ ⟨2, ![E, D]⟩) (d1 : ScatterDims ⟨1, ![N]⟩ ⟨2, ![E, 1]⟩ ⟨1, ![E]⟩)
    (h2u : d2.updateWindowDims = [1]) (h2i : d2.insertedWindowDims = [0]) (h2s : d2.scatterDimsToOperandDims = [0]) (h2v : d2.indexVectorDim = 1)
    (h1u : d1.updateWindowDims = []) (h1i : d1.insertedWindowDims = [0]) (h1s : d1.scatterDimsToOperandDims = [0]) (h1v : d1.indexVectorDim = 1)
    {w : Nat} (idx : IVec ⟨2, ![E, 1]⟩ w)
    (z2 : (⟨2, ![N, D]⟩ : Shape).Idx → EReal) (hz2 : ∀ i, z2 i = 0)
    (z1 : (⟨1, ![N]⟩ : Shape).Idx → EReal) (hz1 : ∀ i, z1 i = 0)
    (ones : (⟨1, ![E]⟩ : Shape).Idx → EReal) (hones : ∀ j, ones j = 1)
    (upd : (⟨2, ![E, D]⟩ : Shape).Idx → EReal) (n : Fin N) (k : Fin D)
    (hc : ¬ 0 < Ideal.hostScatterAdd d1 z1 idx ones (ix1 n)) :
    Ideal.hostScatterAdd d2 z2 idx upd (ix2 n k) = 0 := by
  have hempty : ∀ j, d2.resultIdx? j idx ≠ some (ix2 n k) := by
    intro j hj
    have hst := rows_start d2 h2u h2i h2s h2v idx j (ix2 n k) hj
    have hl := count_lands d1 h1u h1i h1s h1v idx (j 0) n hst
    apply hc
    unfold Ideal.hostScatterAdd
    rw [hz1, zero_add]
    calc (0 : EReal) < 1 := zero_lt_one
      _ = ones (ix1 (n := E) (j 0)) := (hones _).symm
      _ ≤ _ := Finset.single_le_sum (f := ones) (fun i _ => by rw [hones]; exact zero_le_one)
          (Finset.mem_filter.mpr ⟨Finset.mem_univ _, hl⟩)
  unfold Ideal.hostScatterAdd
  rw [hz2, zero_add]
  apply Finset.sum_eq_zero
  intro j hj
  exact absurd (Finset.mem_filter.mp hj).2 (hempty j)

end Idealize.ShloMosaic.ScatterCount
-- ==== Proof.Bridge.lean ====
/-
  One launch of the kernel computes one layer of the reference.

  Both programs compute the per-node neighbour sum `ns` and neighbour count `cnt` by the same host operations on the node
  features and the edge list, so these are one function on each side. The kernel's launch is the layer in the arrangement
  `(ns · Wnᵀ) · (1 / max cnt 1) + mask · bn`, the reference's layer is `if 0 < cnt then (ns / max cnt 1) · Wnᵀ + bn else 0`;
  the two agree because `1 / max cnt 1` is a nonnegative real, which distributes over a sum of extended reals, and because a
  node whose count is not positive has no edge into it, so its row of `ns` is zero: the count is a sum of ones over the edges
  that land on the node, and the row sum ranges over those same edges.
-/
import proofs.«135691_j81252191306417_1_alg».proof.Proof.KernelHost
import proofs.«135691_j81252191306417_1_alg».proof.Proof.RefValue
import proofs.«135691_j81252191306417_1_alg».proof.Proof.LayerAlgebra
import proofs.«135691_j81252191306417_1_alg».proof.Proof.LibScatterCount

noncomputable section

namespace Cert.Bridge

open Idealize.ShloMosaic Idealize.ShloMosaic.ValueIdx
open Cert.ReferenceIdeal.RefValue (Edges Feat Wt Bias)

/-! ## The shared host pieces are one function in both programs -/

theorem rec1 : Cert.KernelIdeal.scatter_S40000_S640000x1_S640000_n_0_0_1 = Cert.ReferenceIdeal.scatter_S40000_S640000x1_S640000_n_0_0_1 := rfl
theorem rec2 : Cert.KernelIdeal.scatter_S40000x128_S640000x1_S640000x128_1_0_0_1 = Cert.ReferenceIdeal.scatter_S40000x128_S640000x1_S640000x128_1_0_0_1 := rfl
theorem recg : Cert.KernelIdeal.gather_S40000x128_S640000x1_S640000x128_1_0_n_n_0_1_1128 = Cert.ReferenceIdeal.gather_S40000x128_S640000x1_S640000x128_1_0_n_n_0_1_1128 := rfl
theorem dst_eq (e : Edges) : Cert.KernelIdeal.KHost.dstIdx (F := Ideal) e = Cert.ReferenceIdeal.RefValue.dstIdx e := rfl
theorem src_eq (e : Edges) : Cert.KernelIdeal.KHost.srcIdx (F := Ideal) e = Cert.ReferenceIdeal.RefValue.srcIdx e := rfl

/-- The neighbour count is one function of the edge list in both programs. -/
theorem cnt_eq (e : Edges) : Cert.KernelIdeal.KHost.cntK (F := Ideal) e = Cert.ReferenceIdeal.RefValue.cntT e := by
  unfold Cert.KernelIdeal.KHost.cntK Cert.ReferenceIdeal.RefValue.cntT
  rw [dst_eq, rec1]

/-- The neighbour sum is one function of the features and the edge list in both programs. -/
theorem ns_eq (x : Feat) (e : Edges) : Cert.KernelIdeal.KHost.nsK (F := Ideal) x e = Cert.ReferenceIdeal.RefValue.nsT x e := by
  unfold Cert.KernelIdeal.KHost.nsK Cert.ReferenceIdeal.RefValue.nsT
  rw [dst_eq, src_eq, rec2, recg]

/-! ## A node with no edge into it has a zero row of neighbour sums -/

/-- The host's accumulating scatter at the ideal values is the exact sum. -/
theorem scatterAdd_ideal {s si su : Shape} (d : ScatterDims s si su) {w : Nat} (x : FVec Ideal s .f32) (idx : IVec si w)
    (upd : FVec Ideal su .f32) : Host.scatterAdd (F := Ideal) d x idx upd = Ideal.hostScatterAdd d x idx upd := rfl

theorem ns_zero (x : Feat) (e : Edges) (n : Fin 40000) (h : ¬ 0 < Cert.ReferenceIdeal.RefValue.cntT e (ix1 n)) (k : Fin 128) :
    Cert.ReferenceIdeal.RefValue.nsT x e (ix2 n k) = 0 := by
  unfold Cert.ReferenceIdeal.RefValue.cntT at h
  rw [scatterAdd_ideal] at h
  unfold Cert.ReferenceIdeal.RefValue.nsT
  rw [scatterAdd_ideal]
  exact ScatterCount.rows_zero_of_count_not_pos (N := 40000) (E := 640000) (D := 128)
    Cert.ReferenceIdeal.scatter_S40000x128_S640000x1_S640000x128_1_0_0_1 Cert.ReferenceIdeal.scatter_S40000_S640000x1_S640000_n_0_0_1
    rfl rfl rfl rfl rfl rfl rfl rfl (Cert.ReferenceIdeal.RefValue.dstIdx e)
    _ (fun i => (Cert.KernelIdeal.KHost.splat_apply _ _ i).trans Ideal.ofBits_zero_f32)
    _ (fun i => (Cert.KernelIdeal.KHost.splat_apply _ _ i).trans Ideal.ofBits_zero_f32)
    _ (fun j => (Cert.KernelIdeal.KHost.splat_apply _ _ j).trans RowLinear.ofBits_one_f32)
    _ n k h

/-! ## One launch of the kernel is one layer of the reference -/

theorem layer_eq (x : Feat) (e : Edges) (Ws : Wt) (bs : Bias) (Wn : Wt) (bn : Bias) :
    Cert.KernelIdeal.KHost.kLayer x e Ws bs Wn bn = Cert.ReferenceIdeal.RefValue.refLayer x e Ws bs Wn bn := by
  rw [Cert.KernelIdeal.KHost.kLayer_eq, Cert.ReferenceIdeal.RefValue.refLayer_eq, cnt_eq, ns_eq]
  exact Cert.GraphConv.layerK_eq_layer _ _ _ _ _ _ _ (fun n h k => ns_zero x e n h k)

end Cert.Bridge

end
-- ==== Proof.lean ====
/-
  A two-layer graph convolution with mean aggregation: the kernel's program against the plain reference, equal as
  extended reals.

  Both programs compute, per layer, the sum `ns` of the features of each node's in-neighbours and their number `cnt` on the
  host, by a gather of the source rows and two accumulating scatters at the destinations. The reference then forms
  `relu (x·Wsᵀ + bs + (if cnt > 0 then (ns / max cnt 1)·Wnᵀ + bn else 0))` on the host; the kernel's program hands `x`, `ns`,
  the column `1 / max cnt 1`, the column of the mask `cnt > 0`, the transposed weights and the biases to one launch, tiled
  over blocks of 5000 nodes, which stores `relu (x·Wsᵀ + bs + ((ns·Wnᵀ)·(1 / max cnt 1) + mask·bn))`. The second layer repeats
  this on the first layer's result with its own weights and the same edge list.

  The frames of the two kernel programs are the generated ones; the reference's frame is its run with the result dropped.
  The value claim: the kernel's run ends with its result array at the launch's function applied twice (the launch theorem
  called with the result array kept, each launch's output array read off the blocks its grid points write, the host
  stretches read operation by operation); the reference's run ends at its layer applied twice; and one launch IS one layer:
  the two arrangements agree because the reciprocal of a number at least one is a nonnegative real, which distributes
  over a sum of extended reals whatever its terms, and because a node that no edge enters has a zero row of neighbour
  sums, so that the unmasked product vanishes exactly where the reference writes zero. No finiteness of the inputs is used.
-/
import proofs.«135691_j81252191306417_1_alg».proof.Defs
import proofs.«135691_j81252191306417_1_alg».proof.Proof.Gen.Kernel
import proofs.«135691_j81252191306417_1_alg».proof.Proof.Gen.Kernel.Frame
import proofs.«135691_j81252191306417_1_alg».proof.Proof.Gen.KernelIdeal
import proofs.«135691_j81252191306417_1_alg».proof.Proof.Gen.KernelIdeal.Frame
import proofs.«135691_j81252191306417_1_alg».proof.Proof.Gen.ReferenceIdeal
import proofs.«135691_j81252191306417_1_alg».proof.Proof.Gen.Pre_finite_inputs
import proofs.«135691_j81252191306417_1_alg».proof.Proof.RefRun
import proofs.«135691_j81252191306417_1_alg».proof.Proof.KernelValue
import proofs.«135691_j81252191306417_1_alg».proof.Proof.Bridge
import Idealize.ShloMosaic.Adequacy
import Idealize.ShloMosaic.Init

noncomputable section

namespace Cert.Proof

open Idealize.ShloMosaic Idealize.SL.Sem

/-- The kernel's program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments the two idealized programs end with equal results: the kernel's at the
    launch's function applied twice, the reference's at its layer applied twice, and one launch is one layer. -/
theorem algebraic : Cert.algebraic_KernelIdeal_ReferenceIdeal := by
  intro m ρ m' ρ' _ hagree
  refine ⟨Cert.KernelIdeal.KOut.result m, Cert.KernelIdeal.KOut.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  rw [← Cert.Bridge.layer_eq, ← Cert.Bridge.layer_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
